-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S100000x128 : Shape := ⟨2, ![100000, 128]⟩
abbrev S512x515 : Shape := ⟨2, ![512, 515]⟩
abbrev S512 : Shape := ⟨1, ![512]⟩
abbrev S1x512 : Shape := ⟨2, ![1, 512]⟩
abbrev S1 : Shape := ⟨1, ![1]⟩
abbrev S_ : Shape := ⟨0, ![]⟩

class Facts : Prop where
  bcast_S_S262144 : S_.BroadcastsInDim S262144 (![] : Fin 0 → Fin S262144.rank)
  reducesTo_S262144_S_d0 : S262144.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S512x515 : S_.BroadcastsInDim S512x515 (![] : Fin 0 → Fin S512x515.rank)
  reducesTo_S512x515_S_d0_1 : S512x515.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg2 : IVec S262144 32) (main_arg3 : IVec S262144 32) (main_v45 : IVec S_ 1) (main_v50 : IVec S262144 1) : IVec S_ 1 :=
  let main_c_19 : IVec S_ 1 := constantI S_ 1 1#1
  let main_v51 : IVec S_ 1 := (fun x v => Host.reduce IntOp.andi x v reducesTo_S262144_S_d0 h_S_) main_v50 main_c_19
  let main_v52 : IVec S_ 1 := andi main_v45 main_v51
  let main_c_20 : IVec S_ 32 := constantI S_ 32 4294867296#32
  let main_v53 : IVec S262144 32 := broadcastInDim S262144 ![] bcast_S_S262144 main_c_20
  let main_v54 : IVec S262144 1 := cmpi .sge main_arg2 main_v53
  let main_c_21 : IVec S_ 32 := constantI S_ 32 100000#32
  let main_v55 : IVec S262144 32 := broadcastInDim S262144 ![] bcast_S_S262144 main_c_21
  let main_v56 : IVec S262144 1 := cmpi .slt main_arg2 main_v55
  let main_v57 : IVec S262144 1 := andi main_v54 main_v56
  let main_c_22 : IVec S_ 1 := constantI S_ 1 1#1
  let main_v58 : IVec S_ 1 := (fun x v => Host.reduce IntOp.andi x v reducesTo_S262144_S_d0 h_S_) main_v57 main_c_22
  let main_v59 : IVec S_ 1 := andi main_v52 main_v58
  let main_c_23 : IVec S_ 32 := constantI S_ 32 4294867296#32
  let main_v60 : IVec S262144 32 := broadcastInDim S262144 ![] bcast_S_S262144 main_c_23
  let main_v61 : IVec S262144 1 := cmpi .sge main_arg3 main_v60
  let main_c_24 : IVec S_ 32 := constantI S_ 32 100000#32
  let main_v62 : IVec S262144 32 := broadcastInDim S262144 ![] bcast_S_S262144 main_c_24
  let main_v63 : IVec S262144 1 := cmpi .slt main_arg3 main_v62
  let main_v64 : IVec S262144 1 := andi main_v61 main_v63
  let main_c_25 : IVec S_ 1 := constantI S_ 1 1#1
  let main_v65 : IVec S_ 1 := (fun x v => Host.reduce IntOp.andi x v reducesTo_S262144_S_d0 h_S_) main_v64 main_c_25
  let main_v66 : IVec S_ 1 := andi main_v59 main_v65
  main_v66

def fn_part2 {F : FTy → Type} [FloatOps F] (main_arg0 : IVec S262144 32) (main_arg1 : IVec S262144 32) (main_arg2 : IVec S262144 32) (main_arg3 : IVec S262144 32) (main_arg11 : FVec F S1 .f32) (main_v33 : IVec S_ 1) : IVec S_ 1 :=
  let main_v34 : FVec F S1 .f32 := Host.absf main_arg11
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_c_14 : IVec S_ 32 := constantI S_ 32 4294867296#32
  let main_v39 : IVec S262144 32 := broadcastInDim S262144 ![] bcast_S_S262144 main_c_14
  let main_v40 : IVec S262144 1 := cmpi .sge main_arg0 main_v39
  let main_c_15 : IVec S_ 32 := constantI S_ 32 100000#32
  let main_v41 : IVec S262144 32 := broadcastInDim S262144 ![] bcast_S_S262144 main_c_15
  let main_v42 : IVec S262144 1 := cmpi .slt main_arg0 main_v41
  let main_v43 : IVec S262144 1 := andi main_v40 main_v42
  let main_c_16 : IVec S_ 1 := constantI S_ 1 1#1
  let main_v44 : IVec S_ 1 := (fun x v => Host.reduce IntOp.andi x v reducesTo_S262144_S_d0 h_S_) main_v43 main_c_16
  let main_v45 : IVec S_ 1 := andi main_v38 main_v44
  let main_c_17 : IVec S_ 32 := constantI S_ 32 4294867296#32
  let main_v46 : IVec S262144 32 := broadcastInDim S262144 ![] bcast_S_S262144 main_c_17
  let main_v47 : IVec S262144 1 := cmpi .sge main_arg1 main_v46
  let main_c_18 : IVec S_ 32 := constantI S_ 32 100000#32
  let main_v48 : IVec S262144 32 := broadcastInDim S262144 ![] bcast_S_S262144 main_c_18
  let main_v49 : IVec S262144 1 := cmpi .slt main_arg1 main_v48
  let main_v50 : IVec S262144 1 := andi main_v47 main_v49
  fn_part3 (F := F) main_arg2 main_arg3 main_v45 main_v50

def fn_part1 {F : FTy → Type} [FloatOps F] (main_arg0 : IVec S262144 32) (main_arg1 : IVec S262144 32) (main_arg2 : IVec S262144 32) (main_arg3 : IVec S262144 32) (main_arg8 : FVec F S512x515 .f32) (main_arg9 : FVec F S512 .f32) (main_arg10 : FVec F S1x512 .f32) (main_arg11 : FVec F S1 .f32) (main_v13 : IVec S_ 1) (main_v16 : IVec S100000x128 1) : IVec S_ 1 :=
  let main_c_5 : IVec S_ 1 := constantI S_ 1 1#1
  let main_v17 : IVec S_ 1 := (fun x v => Host.reduce IntOp.andi x v reducesTo_S100000x128_S_d0_1 h_S_) main_v16 main_c_5
  let main_v18 : IVec S_ 1 := andi main_v13 main_v17
  let main_v19 : FVec F S512x515 .f32 := Host.absf main_arg8
  let main_cst_6 : FVec F S_ .f32 := constant S_ .f32 0x7F800000#32
  let main_v20 : FVec F S512x515 .f32 := broadcastInDim S512x515 ![] bcast_S_S512x515 main_cst_6
  let main_v21 : IVec S512x515 1 := cmpf .olt main_v19 main_v20
  let main_c_7 : IVec S_ 1 := constantI S_ 1 1#1
  let main_v22 : IVec S_ 1 := (fun x v => Host.reduce IntOp.andi x v reducesTo_S512x515_S_d0_1 h_S_) main_v21 main_c_7
  let main_v23 : IVec S_ 1 := andi main_v18 main_v22
  let main_v24 : FVec F S512 .f32 := Host.absf main_arg9
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1x512 .f32 := Host.absf main_arg10
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  fn_part2 (F := F) main_arg0 main_arg1 main_arg2 main_arg3 main_arg11 main_v33

def fn {F : FTy → Type} [FloatOps F] (main_arg0 : IVec S262144 32) (main_arg1 : IVec S262144 32) (main_arg2 : IVec S262144 32) (main_arg3 : IVec S262144 32) (main_arg4 : FVec F S262144 .f32) (main_arg5 : FVec F S262144 .f32) (main_arg6 : FVec F S262144 .f32) (main_arg7 : FVec F S100000x128 .f32) (main_arg8 : FVec F S512x515 .f32) (main_arg9 : FVec F S512 .f32) (main_arg10 : FVec F S1x512 .f32) (main_arg11 : FVec F S1 .f32) : IVec S_ 1 :=
  let main_v0 : FVec F S262144 .f32 := Host.absf main_arg4
  let main_cst : FVec F S_ .f32 := constant S_ .f32 0x7F800000#32
  let main_v1 : FVec F S262144 .f32 := broadcastInDim S262144 ![] bcast_S_S262144 main_cst
  let main_v2 : IVec S262144 1 := cmpf .olt main_v0 main_v1
  let main_c : IVec S_ 1 := constantI S_ 1 1#1
  let main_v3 : IVec S_ 1 := (fun x v => Host.reduce IntOp.andi x v reducesTo_S262144_S_d0 h_S_) main_v2 main_c
  let main_v4 : FVec F S262144 .f32 := Host.absf main_arg5
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S262144 .f32 := Host.absf main_arg6
  let main_cst_2 : FVec F S_ .f32 := constant S_ .f32 0x7F800000#32
  let main_v10 : FVec F S262144 .f32 := broadcastInDim S262144 ![] bcast_S_S262144 main_cst_2
  let main_v11 : IVec S262144 1 := cmpf .olt main_v9 main_v10
  let main_c_3 : IVec S_ 1 := constantI S_ 1 1#1
  let main_v12 : IVec S_ 1 := (fun x v => Host.reduce IntOp.andi x v reducesTo_S262144_S_d0 h_S_) main_v11 main_c_3
  let main_v13 : IVec S_ 1 := andi main_v8 main_v12
  let main_v14 : FVec F S100000x128 .f32 := Host.absf main_arg7
  let main_cst_4 : FVec F S_ .f32 := constant S_ .f32 0x7F800000#32
  let main_v15 : FVec F S100000x128 .f32 := broadcastInDim S100000x128 ![] bcast_S_S100000x128 main_cst_4
  let main_v16 : IVec S100000x128 1 := cmpf .olt main_v14 main_v15
  fn_part1 (F := F) main_arg0 main_arg1 main_arg2 main_arg3 main_arg8 main_arg9 main_arg10 main_arg11 main_v13 main_v16
-- ==== Kernel.lean ====
abbrev S262144 : Shape := ⟨1, ![262144]⟩
abbrev S100000x128 : Shape := ⟨2, ![100000, 128]⟩
abbrev S512x515 : Shape := ⟨2, ![512, 515]⟩
abbrev S512 : Shape := ⟨1, ![512]⟩
abbrev S1x512 : Shape := ⟨2, ![1, 512]⟩
abbrev S1 : Shape := ⟨1, ![1]⟩
abbrev S_ : Shape := ⟨0, ![]⟩
abbrev S262144x1 : Shape := ⟨2, ![262144, 1]⟩
abbrev S1x1 : Shape := ⟨2, ![1, 1]⟩
abbrev S262144x128 : Shape := ⟨2, ![262144, 128]⟩
abbrev S262144x3 : Shape := ⟨2, ![262144, 3]⟩
abbrev S515x512 : Shape := ⟨2, ![515, 512]⟩
abbrev S512x1 : Shape := ⟨2, ![512, 1]⟩
abbrev S2048x128 : Shape := ⟨2, ![2048, 128]⟩
abbrev S2048x3 : Shape := ⟨2, ![2048, 3]⟩
abbrev S2048 : Shape := ⟨1, ![2048]⟩
abbrev S2048x515 : Shape := ⟨2, ![2048, 515]⟩
abbrev S2048x512 : Shape := ⟨2, ![2048, 512]⟩
abbrev S2048x1 : Shape := ⟨2, ![2048, 1]⟩

abbrev nBuf : Space → Nat
  | .hbm => 113
  | .vmem => 16
  | .smem => 0
  | _ => 0

abbrev bufTy : (tb : Table) → Fin (tcTables nBuf tb) → BufTy
  | .hbm, ⟨0, _⟩ => ⟨S262144, .i32⟩
  | .hbm, ⟨1, _⟩ => ⟨S262144, .i32⟩
  | .hbm, ⟨2, _⟩ => ⟨S262144, .i32⟩
  | .hbm, ⟨3, _⟩ => ⟨S262144, .i32⟩
  | .hbm, ⟨4, _⟩ => ⟨S262144, .f32⟩
  | .hbm, ⟨5, _⟩ => ⟨S262144, .f32⟩
  | .hbm, ⟨6, _⟩ => ⟨S262144, .f32⟩
  | .hbm, ⟨7, _⟩ => ⟨S100000x128, .f32⟩
  | .hbm, ⟨8, _⟩ => ⟨S512x515, .f32⟩
  | .hbm, ⟨9, _⟩ => ⟨S512, .f32⟩
  | .hbm, ⟨10, _⟩ => ⟨S1x512, .f32⟩
  | .hbm, ⟨11, _⟩ => ⟨S1, .f32⟩
  | .hbm, ⟨12, _⟩ => ⟨S_, .i32⟩
  | .hbm, ⟨13, _⟩ => ⟨S262144, .i32⟩
  | .hbm, ⟨14, _⟩ => ⟨S262144, .i1⟩
  | .hbm, ⟨15, _⟩ => ⟨S_, .i32⟩
  | .hbm, ⟨16, _⟩ => ⟨S262144, .i32⟩
  | .hbm, ⟨17, _⟩ => ⟨S262144, .i32⟩
  | .hbm, ⟨18, _⟩ => ⟨S262144, .i32⟩
  | .hbm, ⟨19, _⟩ => ⟨S262144x1, .i32⟩
  | .hbm, ⟨20, _⟩ => ⟨S1, .i32⟩
  | .hbm, ⟨21, _⟩ => ⟨S_, .i32⟩
  | .hbm, ⟨22, _⟩ => ⟨S262144x1, .i32⟩
  | .hbm, ⟨23, _⟩ => ⟨S262144x1, .i1⟩
  | .hbm, ⟨24, _⟩ => ⟨S1x1, .i32⟩
  | .hbm, ⟨25, _⟩ => ⟨S262144x1, .i32⟩
  | .hbm, ⟨26, _⟩ => ⟨S262144x1, .i1⟩
  | .hbm, ⟨27, _⟩ => ⟨S262144x1, .i1⟩
  | .hbm, ⟨28, _⟩ => ⟨S_, .i1⟩
  | .hbm, ⟨29, _⟩ => ⟨S262144, .i1⟩
  | .hbm, ⟨30, _⟩ => ⟨S262144x128, .f32⟩
  | .hbm, ⟨31, _⟩ => ⟨S262144x128, .i1⟩
  | .hbm, ⟨32, _⟩ => ⟨S_, .f32⟩
  | .hbm, ⟨33, _⟩ => ⟨S262144x128, .f32⟩
  | .hbm, ⟨34, _⟩ => ⟨S262144x128, .f32⟩
  | .hbm, ⟨35, _⟩ => ⟨S_, .i32⟩
  | .hbm, ⟨36, _⟩ => ⟨S262144, .i32⟩
  | .hbm, ⟨37, _⟩ => ⟨S262144, .i1⟩
  | .hbm, ⟨38, _⟩ => ⟨S_, .i32⟩
  | .hbm, ⟨39, _⟩ => ⟨S262144, .i32⟩
  | .hbm, ⟨40, _⟩ => ⟨S262144, .i32⟩
  | .hbm, ⟨41, _⟩ => ⟨S262144, .i32⟩
  | .hbm, ⟨42, _⟩ => ⟨S262144x1, .i32⟩
  | .hbm, ⟨43, _⟩ => ⟨S1, .i32⟩
  | .hbm, ⟨44, _⟩ => ⟨S_, .i32⟩
  | .hbm, ⟨45, _⟩ => ⟨S262144x1, .i32⟩
  | .hbm, ⟨46, _⟩ => ⟨S262144x1, .i1⟩
  | .hbm, ⟨47, _⟩ => ⟨S1x1, .i32⟩
  | .hbm, ⟨48, _⟩ => ⟨S262144x1, .i32⟩
  | .hbm, ⟨49, _⟩ => ⟨S262144x1, .i1⟩
  | .hbm, ⟨50, _⟩ => ⟨S262144x1, .i1⟩
  | .hbm, ⟨51, _⟩ => ⟨S_, .i1⟩
  | .hbm, ⟨52, _⟩ => ⟨S262144, .i1⟩
  | .hbm, ⟨53, _⟩ => ⟨S262144x128, .f32⟩
  | .hbm, ⟨54, _⟩ => ⟨S262144x128, .i1⟩
  | .hbm, ⟨55, _⟩ => ⟨S_, .f32⟩
  | .hbm, ⟨56, _⟩ => ⟨S262144x128, .f32⟩
  | .hbm, ⟨57, _⟩ => ⟨S262144x128, .f32⟩
  | .hbm, ⟨58, _⟩ => ⟨S_, .i32⟩
  | .hbm, ⟨59, _⟩ => ⟨S262144, .i32⟩
  | .hbm, ⟨60, _⟩ => ⟨S262144, .i1⟩
  | .hbm, ⟨61, _⟩ => ⟨S_, .i32⟩
  | .hbm, ⟨62, _⟩ => ⟨S262144, .i32⟩
  | .hbm, ⟨63, _⟩ => ⟨S262144, .i32⟩
  | .hbm, ⟨64, _⟩ => ⟨S262144, .i32⟩
  | .hbm, ⟨65, _⟩ => ⟨S262144x1, .i32⟩
  | .hbm, ⟨66, _⟩ => ⟨S1, .i32⟩
  | .hbm, ⟨67, _⟩ => ⟨S_, .i32⟩
  | .hbm, ⟨68, _⟩ => ⟨S262144x1, .i32⟩
  | .hbm, ⟨69, _⟩ => ⟨S262144x1, .i1⟩
  | .hbm, ⟨70, _⟩ => ⟨S1x1, .i32⟩
  | .hbm, ⟨71, _⟩ => ⟨S262144x1, .i32⟩
  | .hbm, ⟨72, _⟩ => ⟨S262144x1, .i1⟩
  | .hbm, ⟨73, _⟩ => ⟨S262144x1, .i1⟩
  | .hbm, ⟨74, _⟩ => ⟨S_, .i1⟩
  | .hbm, ⟨75, _⟩ => ⟨S262144, .i1⟩
  | .hbm, ⟨76, _⟩ => ⟨S262144x128, .f32⟩
  | .hbm, ⟨77, _⟩ => ⟨S262144x128, .i1⟩
  | .hbm, ⟨78, _⟩ => ⟨S_, .f32⟩
  | .hbm, ⟨79, _⟩ => ⟨S262144x128, .f32⟩
  | .hbm, ⟨80, _⟩ => ⟨S262144x128, .f32⟩
  | .hbm, ⟨81, _⟩ => ⟨S_, .i32⟩
  | .hbm, ⟨82, _⟩ => ⟨S262144, .i32⟩
  | .hbm, ⟨83, _⟩ => ⟨S262144, .i1⟩
  | .hbm, ⟨84, _⟩ => ⟨S_, .i32⟩
  | .hbm, ⟨85, _⟩ => ⟨S262144, .i32⟩
  | .hbm, ⟨86, _⟩ => ⟨S262144, .i32⟩
  | .hbm, ⟨87, _⟩ => ⟨S262144, .i32⟩
  | .hbm, ⟨88, _⟩ => ⟨S262144x1, .i32⟩
  | .hbm, ⟨89, _⟩ => ⟨S1, .i32⟩
  | .hbm, ⟨90, _⟩ => ⟨S_, .i32⟩
  | .hbm, ⟨91, _⟩ => ⟨S262144x1, .i32⟩
  | .hbm, ⟨92, _⟩ => ⟨S262144x1, .i1⟩
  | .hbm, ⟨93, _⟩ => ⟨S1x1, .i32⟩
  | .hbm, ⟨94, _⟩ => ⟨S262144x1, .i32⟩
  | .hbm, ⟨95, _⟩ => ⟨S262144x1, .i1⟩
  | .hbm, ⟨96, _⟩ => ⟨S262144x1, .i1⟩
  | .hbm, ⟨97, _⟩ => ⟨S_, .i1⟩
  | .hbm, ⟨98, _⟩ => ⟨S262144, .i1⟩
  | .hbm, ⟨99, _⟩ => ⟨S262144x128, .f32⟩
  | .hbm, ⟨100, _⟩ => ⟨S262144x128, .i1⟩
  | .hbm, ⟨101, _⟩ => ⟨S_, .f32⟩
  | .hbm, ⟨102, _⟩ => ⟨S262144x128, .f32⟩
  | .hbm, ⟨103, _⟩ => ⟨S262144x128, .f32⟩
  | .hbm, ⟨104, _⟩ => ⟨S262144x1, .f32⟩
  | .hbm, ⟨105, _⟩ => ⟨S262144x1, .f32⟩
  | .hbm, ⟨106, _⟩ => ⟨S262144x1, .f32⟩
  | .hbm, ⟨107, _⟩ => ⟨S262144x3, .f32⟩
  | .hbm, ⟨108, _⟩ => ⟨S515x512, .f32⟩
  | .hbm, ⟨109, _⟩ => ⟨S515x512, .bf16⟩
  | .hbm, ⟨110, _⟩ => ⟨S512x1, .f32⟩
  | .hbm, ⟨111, _⟩ => ⟨S512x1, .bf16⟩
  | .hbm, ⟨112, _⟩ => ⟨S262144, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x3, .f32⟩
  | .local _ .vmem, ⟨9, _⟩ => ⟨S2048x3, .f32⟩
  | .local _ .vmem, ⟨10, _⟩ => ⟨S515x512, .bf16⟩
  | .local _ .vmem, ⟨11, _⟩ => ⟨S512, .f32⟩
  | .local _ .vmem, ⟨12, _⟩ => ⟨S512x1, .bf16⟩
  | .local _ .vmem, ⟨13, _⟩ => ⟨S1, .f32⟩
  | .local _ .vmem, ⟨14, _⟩ => ⟨S2048, .f32⟩
  | .local _ .vmem, ⟨15, _⟩ => ⟨S2048, .f32⟩
  | _, _ => ⟨S262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v1 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_c_1 : Ref sig .tc := ⟨.hbm, 66, rfl⟩
abbrev main_call2_c_2 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_3 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_call2_cst : Ref sig .tc := ⟨.hbm, 78, rfl⟩
abbrev main_call2_v15 : Ref sig .tc := ⟨.hbm, 79, rfl⟩
abbrev main_v2 : Ref sig .tc := ⟨.hbm, 80, rfl⟩
abbrev main_call3_c : Ref sig .tc := ⟨.hbm, 81, rfl⟩
abbrev main_call3_v0 : Ref sig .tc := ⟨.hbm, 82, rfl⟩
abbrev main_call3_v1 : Ref sig .tc := ⟨.hbm, 83, rfl⟩
abbrev main_call3_c_0 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_c_1 : Ref sig .tc := ⟨.hbm, 89, rfl⟩
abbrev main_call3_c_2 : Ref sig .tc := ⟨.hbm, 90, rfl⟩
abbrev main_call3_v6 : Ref sig .tc := ⟨.hbm, 91, rfl⟩
abbrev main_call3_v7 : Ref sig .tc := ⟨.hbm, 92, rfl⟩
abbrev main_call3_v8 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_c_3 : Ref sig .tc := ⟨.hbm, 97, rfl⟩
abbrev main_call3_v12 : Ref sig .tc := ⟨.hbm, 98, rfl⟩
abbrev main_call3_v13 : Ref sig .tc := ⟨.hbm, 99, rfl⟩
abbrev main_call3_v14 : Ref sig .tc := ⟨.hbm, 100, rfl⟩
abbrev main_call3_cst : Ref sig .tc := ⟨.hbm, 101, rfl⟩
abbrev main_call3_v15 : Ref sig .tc := ⟨.hbm, 102, rfl⟩
abbrev main_v3 : Ref sig .tc := ⟨.hbm, 103, rfl⟩
abbrev main_v4 : Ref sig .tc := ⟨.hbm, 104, rfl⟩
abbrev main_v5 : Ref sig .tc := ⟨.hbm, 105, rfl⟩
abbrev main_v6 : Ref sig .tc := ⟨.hbm, 106, rfl⟩
abbrev main_v7 : Ref sig .tc := ⟨.hbm, 107, rfl⟩
abbrev main_v8 : Ref sig .tc := ⟨.hbm, 108, rfl⟩
abbrev main_v9 : Ref sig .tc := ⟨.hbm, 109, rfl⟩
abbrev main_v10 : Ref sig .tc := ⟨.hbm, 110, rfl⟩
abbrev main_v11 : Ref sig .tc := ⟨.hbm, 111, rfl⟩
abbrev main_v12 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S515x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S262144_d1 : S262144x1.ReducesTo [1] S262144
  h_S_ : 0 < S_.numel
  bcast_S262144_S262144x128_0 : S262144.BroadcastsInDim S262144x128 (![0] : Fin 1 → Fin S262144x128.rank)
  bcast_S_S262144x128 : S_.BroadcastsInDim S262144x128 (![] : Fin 0 → Fin S262144x128.rank)
  concatenates_S262144x1_S262144x1_S262144x1_S262144x3_d1 : Shape.Concatenates [S262144x1, S262144x1, S262144x1] S262144x3 1
  transposes_S512x515_S515x512_1_0 : S512x515.Transposes [1, 0] S515x512
  bitsLt_bf16_f32 : FTy.bits .bf16 < FTy.bits .f32
  transposes_S1x512_S512x1_1_0 : S1x512.Transposes [1, 0] S512x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x3_S2048x3_0_0 : ∀ a, (![0, 0] : Fin 2 → Nat) a + S2048x3.size a ≤ S2048x3.size a
  h_S2048x3 : 0 < S2048x3.numel
  shapeCasts_S2048x3_S2048x3 : S2048x3.ShapeCasts S2048x3
  concatenates_S2048x128_S2048x128_S2048x128_S2048x128_S2048x3_S2048x515_d1 : Shape.Concatenates [S2048x128, S2048x128, S2048x128, S2048x128, S2048x3] S2048x515 1
  inb_S515x512_S515x512_0_0 : ∀ a, (![0, 0] : Fin 2 → Nat) a + S515x512.size a ≤ S515x512.size a
  h_S515x512 : 0 < S515x512.numel
  shapeCasts_S515x512_S515x512 : S515x512.ShapeCasts S515x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  shapeCasts_S2048x1_S2048 : S2048x1.ShapeCasts S2048
  inb_S2048_S2048_0 : ∀ a, (![0] : Fin 1 → Nat) a + S2048.size a ≤ S2048.size a
  h_S2048 : 0 < S2048.numel
  gather_S100000x128_S262144x1_S262144x128_1_0_n_n_0_1_1128_wf : GatherDims.WF S100000x128 S262144x1 S262144x128 [1] [0] [] [0] [] 1 ![1, 128]
  dot_S2048x515_S515x512_S2048x512_1_0_0_1_n_n_wf : DotDims.WF S2048x515 S515x512 S2048x512 [1] [0] [0] [1] [] []
  dot_S2048x512_S512x1_S2048x1_1_0_0_1_n_n_wf : DotDims.WF S2048x512 S512x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S262144x128.size a
  hwx0_1 : ∀ i : grid0.Coords, EltTy.bits .f32 = 32 ∨ (Rect.block (s := S262144x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S262144x128.size a
  hwx0_2 : ∀ i : grid0.Coords, EltTy.bits .f32 = 32 ∨ (Rect.block (s := S262144x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S262144x128.size a
  hwx0_3 : ∀ i : grid0.Coords, EltTy.bits .f32 = 32 ∨ (Rect.block (s := S262144x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x3.size a ≤ S262144x3.size a
  hwx0_4 : ∀ i : grid0.Coords, EltTy.bits .f32 = 32 ∨ (Rect.block (s := S262144x3) S2048x3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S515x512.size a ≤ S515x512.size a
  hwx0_5 : ∀ i : grid0.Coords, EltTy.bits .bf16 = 32 ∨ (Rect.block (s := S515x512) S515x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S512x1.size a
  hwx0_7 : ∀ i : grid0.Coords, EltTy.bits .bf16 = 32 ∨ (Rect.block (s := S512x1) S512x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048.size a ≤ S262144.size a
  hwx0_9 : ∀ i : grid0.Coords, EltTy.bits .f32 = 32 ∨ (Rect.block (s := S262144) S2048.size (cc0_transform_9 i) (hinb0_9 i)).WholeWords (EltTy.packing .f32)

variable [Facts₀]

def gather_S100000x128_S262144x1_S262144x128_1_0_n_n_0_1_1128 : GatherDims S100000x128 S262144x1 S262144x128 where
  offsetDims := [1]
  collapsedSliceDims := [0]
  operandBatchingDims := []
  startIndicesBatchingDims := []
  startIndexMap := [0]
  indexVectorDim := 1
  sliceSizes := ![1, 128]
  wf := gather_S100000x128_S262144x1_S262144x128_1_0_n_n_0_1_1128_wf
def dot_S2048x515_S515x512_S2048x512_1_0_0_1_n_n : DotDims S2048x515 S515x512 S2048x512 where
  lhsContracting := [1]
  rhsContracting := [0]
  lhsNonContracting := [0]
  rhsNonContracting := [1]
  lhsBatch := []
  rhsBatch := []
  wf := dot_S2048x515_S515x512_S2048x512_1_0_0_1_n_n_wf
def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S2048x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S515x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S512x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144 : Shape := ⟨1, ![262144]⟩
abbrev S100000x128 : Shape := ⟨2, ![100000, 128]⟩
abbrev S512x515 : Shape := ⟨2, ![512, 515]⟩
abbrev S512 : Shape := ⟨1, ![512]⟩
abbrev S1x512 : Shape := ⟨2, ![1, 512]⟩
abbrev S1 : Shape := ⟨1, ![1]⟩
abbrev S_ : Shape := ⟨0, ![]⟩
abbrev S262144x1 : Shape := ⟨2, ![262144, 1]⟩
abbrev S262144x128 : Shape := ⟨2, ![262144, 128]⟩
abbrev S262144x3 : Shape := ⟨2, ![262144, 3]⟩
abbrev S262144x515 : Shape := ⟨2, ![262144, 515]⟩
abbrev S515x512 : Shape := ⟨2, ![515, 512]⟩
abbrev S262144x512 : Shape := ⟨2, ![262144, 512]⟩
abbrev S512x1 : Shape := ⟨2, ![512, 1]⟩
abbrev S1x1 : Shape := ⟨2, ![1, 1]⟩

abbrev nBuf : Space → Nat
  | .hbm => 67
  | .vmem => 0
  | .smem => 0
  | _ => 0

abbrev bufTy : (tb : Table) → Fin (tcTables nBuf tb) → BufTy
  | .hbm, ⟨0, _⟩ => ⟨S262144, .i32⟩
  | .hbm, ⟨1, _⟩ => ⟨S262144, .i32⟩
  | .hbm, ⟨2, _⟩ => ⟨S262144, .i32⟩
  | .hbm, ⟨3, _⟩ => ⟨S262144, .i32⟩
  | .hbm, ⟨4, _⟩ => ⟨S262144, .f32⟩
  | .hbm, ⟨5, _⟩ => ⟨S262144, .f32⟩
  | .hbm, ⟨6, _⟩ => ⟨S262144, .f32⟩
  | .hbm, ⟨7, _⟩ => ⟨S100000x128, .f32⟩
  | .hbm, ⟨8, _⟩ => ⟨S512x515, .f32⟩
  | .hbm, ⟨9, _⟩ => ⟨S512, .f32⟩
  | .hbm, ⟨10, _⟩ => ⟨S1x512, .f32⟩
  | .hbm, ⟨11, _⟩ => ⟨S1, .f32⟩
  | .hbm, ⟨12, _⟩ => ⟨S_, .i32⟩
  | .hbm, ⟨13, _⟩ => ⟨S262144, .i32⟩
  | .hbm, ⟨14, _⟩ => ⟨S262144, .i1⟩
  | .hbm, ⟨15, _⟩ => ⟨S_, .i32⟩
  | .hbm, ⟨16, _⟩ => ⟨S262144, .i32⟩
  | .hbm, ⟨17, _⟩ => ⟨S262144, .i32⟩
  | .hbm, ⟨18, _⟩ => ⟨S262144, .i32⟩
  | .hbm, ⟨19, _⟩ => ⟨S262144x1, .i32⟩
  | .hbm, ⟨20, _⟩ => ⟨S262144x128, .f32⟩
  | .hbm, ⟨21, _⟩ => ⟨S_, .i32⟩
  | .hbm, ⟨22, _⟩ => ⟨S262144, .i32⟩
  | .hbm, ⟨23, _⟩ => ⟨S262144, .i1⟩
  | .hbm, ⟨24, _⟩ => ⟨S_, .i32⟩
  | .hbm, ⟨25, _⟩ => ⟨S262144, .i32⟩
  | .hbm, ⟨26, _⟩ => ⟨S262144, .i32⟩
  | .hbm, ⟨27, _⟩ => ⟨S262144, .i32⟩
  | .hbm, ⟨28, _⟩ => ⟨S262144x1, .i32⟩
  | .hbm, ⟨29, _⟩ => ⟨S262144x128, .f32⟩
  | .hbm, ⟨30, _⟩ => ⟨S_, .i32⟩
  | .hbm, ⟨31, _⟩ => ⟨S262144, .i32⟩
  | .hbm, ⟨32, _⟩ => ⟨S262144, .i1⟩
  | .hbm, ⟨33, _⟩ => ⟨S_, .i32⟩
  | .hbm, ⟨34, _⟩ => ⟨S262144, .i32⟩
  | .hbm, ⟨35, _⟩ => ⟨S262144, .i32⟩
  | .hbm, ⟨36, _⟩ => ⟨S262144, .i32⟩
  | .hbm, ⟨37, _⟩ => ⟨S262144x1, .i32⟩
  | .hbm, ⟨38, _⟩ => ⟨S262144x128, .f32⟩
  | .hbm, ⟨39, _⟩ => ⟨S_, .i32⟩
  | .hbm, ⟨40, _⟩ => ⟨S262144, .i32⟩
  | .hbm, ⟨41, _⟩ => ⟨S262144, .i1⟩
  | .hbm, ⟨42, _⟩ => ⟨S_, .i32⟩
  | .hbm, ⟨43, _⟩ => ⟨S262144, .i32⟩
  | .hbm, ⟨44, _⟩ => ⟨S262144, .i32⟩
  | .hbm, ⟨45, _⟩ => ⟨S262144, .i32⟩
  | .hbm, ⟨46, _⟩ => ⟨S262144x1, .i32⟩
  | .hbm, ⟨47, _⟩ => ⟨S262144x128, .f32⟩
  | .hbm, ⟨48, _⟩ => ⟨S262144x1, .f32⟩
  | .hbm, ⟨49, _⟩ => ⟨S262144x1, .f32⟩
  | .hbm, ⟨50, _⟩ => ⟨S262144x1, .f32⟩
  | .hbm, ⟨51, _⟩ => ⟨S262144x3, .f32⟩
  | .hbm, ⟨52, _⟩ => ⟨S262144x515, .f32⟩
  | .hbm, ⟨53, _⟩ => ⟨S515x512, .f32⟩
  | .hbm, ⟨54, _⟩ => ⟨S262144x512, .f32⟩
  | .hbm, ⟨55, _⟩ => ⟨S1x512, .f32⟩
  | .hbm, ⟨56, _⟩ => ⟨S262144x512, .f32⟩
  | .hbm, ⟨57, _⟩ => ⟨S262144x512, .f32⟩
  | .hbm, ⟨58, _⟩ => ⟨S_, .f32⟩
  | .hbm, ⟨59, _⟩ => ⟨S262144x512, .f32⟩
  | .hbm, ⟨60, _⟩ => ⟨S262144x512, .f32⟩
  | .hbm, ⟨61, _⟩ => ⟨S512x1, .f32⟩
  | .hbm, ⟨62, _⟩ => ⟨S262144x1, .f32⟩
  | .hbm, ⟨63, _⟩ => ⟨S1x1, .f32⟩
  | .hbm, ⟨64, _⟩ => ⟨S262144x1, .f32⟩
  | .hbm, ⟨65, _⟩ => ⟨S262144x1, .f32⟩
  | .hbm, ⟨66, _⟩ => ⟨S262144, .f32⟩
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call0_cst : Ref sig .tc := ⟨.hbm, 58, rfl⟩
abbrev main_call0_v0 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x1_S262144x3_d1 : Shape.Concatenates [S262144x1, S262144x1, S262144x1] S262144x3 1
  concatenates_S262144x128_S262144x128_S262144x128_S262144x128_S262144x3_S262144x515_d1 : Shape.Concatenates [S262144x128, S262144x128, S262144x128, S262144x128, S262144x3] S262144x515 1
  transposes_S512x515_S515x512_1_0 : S512x515.Transposes [1, 0] S515x512
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  bcast_S_S262144x512 : S_.BroadcastsInDim S262144x512 (![] : Fin 0 → Fin S262144x512.rank)
  transposes_S1x512_S512x1_1_0 : S1x512.Transposes [1, 0] S512x1
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  shapeCasts_S262144x1_S262144 : S262144x1.ShapeCasts S262144
  gather_S100000x128_S262144x1_S262144x128_1_0_n_n_0_1_1128_wf : GatherDims.WF S100000x128 S262144x1 S262144x128 [1] [0] [] [0] [] 1 ![1, 128]
  dot_S262144x515_S515x512_S262144x512_1_0_0_1_n_n_wf : DotDims.WF S262144x515 S515x512 S262144x512 [1] [0] [0] [1] [] []
  dot_S262144x512_S512x1_S262144x1_1_0_0_1_n_n_wf : DotDims.WF S262144x512 S512x1 S262144x1 [1] [0] [0] [1] [] []

variable [Facts₀]

def gather_S100000x128_S262144x1_S262144x128_1_0_n_n_0_1_1128 : GatherDims S100000x128 S262144x1 S262144x128 where
  offsetDims := [1]
  collapsedSliceDims := [0]
  operandBatchingDims := []
  startIndicesBatchingDims := []
  startIndexMap := [0]
  indexVectorDim := 1
  sliceSizes := ![1, 128]
  wf := gather_S100000x128_S262144x1_S262144x128_1_0_n_n_0_1_1128_wf
def dot_S262144x515_S515x512_S262144x512_1_0_0_1_n_n : DotDims S262144x515 S515x512 S262144x512 where
  lhsContracting := [1]
  rhsContracting := [0]
  lhsNonContracting := [0]
  rhsNonContracting := [1]
  lhsBatch := []
  rhsBatch := []
  wf := dot_S262144x515_S515x512_S262144x512_1_0_0_1_n_n_wf
def dot_S262144x512_S512x1_S262144x1_1_0_0_1_n_n : DotDims S262144x512 S512x1 S262144x1 where
  lhsContracting := [1]
  rhsContracting := [0]
  lhsNonContracting := [0]
  rhsNonContracting := [1]
  lhsBatch := []
  rhsBatch := []
  wf := dot_S262144x512_S512x1_S262144x1_1_0_0_1_n_n_wf

class Facts : Prop extends Facts₀ where

variable [Facts]
-- ==== Proof.LaunchData.lean ====
/-
  The data of the kernel's one launch, stated once for any float instance.

  @main computes the four gathered embedding arrays, the stacked scalar features and the two transposed weight
  matrices on the host, then launches one kernel over 128 grid points. Point `t` is handed rows
  2048·t … 2048·t + 2047 of the four gathered arrays and of the scalar features, and the whole of both weight
  matrices and both biases; it writes entries 2048·t … 2048·t + 2047 of the result.

  `V` is what each buffer holds when the launch is reached; `iblk` a window's block at a point, read off `V`;
  `out9` what the kernel body leaves in the result's staging buffer, as a function of the nine blocks it loads
  (its single store covers the buffer); `dats` the launch's proof data: every input window's buffer is left at
  its block, the result's buffer at `out9` of the blocks.
-/
import proofs.«429534_j38465727103888_1_alg».proof.Proof.Gen.KernelIdeal.Launch
import proofs.«429534_j38465727103888_1_alg».proof.Proof.Gen.KernelIdeal.Skeleton
import proofs.«429534_j38465727103888_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffers when the launch is reached: after the four embedding look-ups and the eight operations
    that stack the scalar features and lay out the weights. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

/-- Window `w`'s block at point `t`, read off its array as the launch finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The whole of a 2048 × 128 block. -/
abbrev rE : Rect S2048x128 := Rect.unit (s := S2048x128) ![0, 0] S2048x128.size inb_S2048x128_S2048x128_0_0
/-- The whole of a 2048 × 3 block. -/
abbrev rS : Rect S2048x3 := Rect.unit (s := S2048x3) ![0, 0] S2048x3.size inb_S2048x3_S2048x3_0_0
/-- The whole 515 × 512 first-layer matrix. -/
abbrev rW1 : Rect S515x512 := Rect.unit (s := S515x512) ![0, 0] S515x512.size inb_S515x512_S515x512_0_0
/-- The whole first-layer bias. -/
abbrev rB1 : Rect S512 := Rect.unit (s := S512) ![0] S512.size inb_S512_S512_0
/-- The whole 512 × 1 second-layer matrix. -/
abbrev rW2 : Rect S512x1 := Rect.unit (s := S512x1) ![0, 0] S512x1.size inb_S512x1_S512x1_0_0
/-- The one-entry second-layer bias. -/
abbrev rB2 : Rect S1 := Rect.unit (s := S1) ![0] S1.size inb_S1_S1_0
/-- The whole 2048-entry result block. -/
abbrev rO : Rect S2048 := Rect.unit (s := S2048) ![0] S2048.size inb_S2048_S2048_0

/-- What the body leaves in the result's staging buffer, from the nine blocks it loads: its one store, which
    covers the buffer, of the scores of the block's 2048 rows. -/
def out9 (x0 x1 x2 x3 : Vec F S2048x128 .f32) (x4 : Vec F S2048x3 .f32) (x5 : Vec F S515x512 .bf16)
    (x6 : Vec F S512 .f32) (x7 : Vec F S512x1 .bf16) (x8 : Vec F S1 .f32) : Vec F S2048 .f32 :=
  View.canon [⟨rO, k0_pay1 (View.ld x0 rE) (View.ld x1 rE) (View.ld x2 rE) (View.ld x3 rE) (View.ld x4 rS)
    (View.ld x5 rW1) (View.ld x6 rB1) (View.ld x7 rW2) (View.ld x8 rB2)⟩]

/-- The one store tiles the result's buffer, so it covers it. -/
theorem cover9 (p0 : Vec F S2048 .f32) (y : S2048.Idx) :
    ∃ pc ∈ ([⟨rO, p0⟩] : List (View.Piece (Elt F) S2048 .f32)), y ∈ pc.1.set :=
  View.cover_of_tiled [⟨rO, p0⟩] S2048.size (by rfl) y

/-- The launch's proof data on core `c`: the arrays as the launch finds them; after the body at point `t` every
    input window's buffer still at its block and the result's at `out9` of the blocks; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t)
        (iblk m c 6 t) (iblk m c 7 t) (iblk m c 8 t)
  Φ _ := Pipeline.ΦA spec0 c
  q _ := fullShare
  owed _ := 0

/-- The proof data's arrays are the contents at the launch. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t =
    out9 (iblk m c 0 t) (iblk m c 1 t) (iblk m c 2 t) (iblk m c 3 t) (iblk m c 4 t) (iblk m c 5 t)
      (iblk m c 6 t) (iblk m c 7 t) (iblk m c 8 t) := by dsimp only [dats]

end Cert.KernelIdeal.Hand

end
-- ==== Proof.LaunchRun.lean ====
/-
  The run of @main, for any float instance: it terminates without fault, leaves its twelve argument arrays as it
  found them, and leaves every array of the launch at what the launch's proof data say.

  @main is five stretches of host operations followed by one launch. No host operation writes an argument array,
  so the launch finds each argument as @main was given it. The kernel body loads the whole of nine staging
  buffers, loads the result's staging buffer once without using what it read, and stores one value over the
  whole of the result's staging buffer; so from the nine blocks it leaves the inputs' buffers as they were and
  the result's at `out9` of the blocks, whatever the result's buffer held before. An input window's buffer holds
  the window's block at every point, whether the block was fetched at that point or at an earlier one (the
  weights and biases are fetched once, at the first point, and their block index never moves).
-/
import proofs.«429534_j38465727103888_1_alg».proof.Proof.LaunchData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- No host operation of the five stretches allocates a buffer. -/
theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor
theorem fresh4 : (hostOps0_4 : List (HloOp τ sig (Elt F))).Forall fun op => op.fresh = ∅ := by
  simp only [List.Forall]; repeat' constructor

/-- @main is its five host stretches and then the launch, which finds the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨fresh0, fresh1, fresh2, fresh3, fresh4⟩) main_chain

/-! ## The arguments at the launch

Every host operation writes one buffer, its result, and no result is an argument array. -/

/-- Argument 0 reaches the launch as @main was given it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 1 reaches the launch as @main was given it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 2 reaches the launch as @main was given it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 3 reaches the launch as @main was given it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 4 reaches the launch as @main was given it. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 5 reaches the launch as @main was given it. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 6 reaches the launch as @main was given it. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 7 reaches the launch as @main was given it. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 8 reaches the launch as @main was given it. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 9 reaches the launch as @main was given it. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 10 reaches the launch as @main was given it. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 11 reaches the launch as @main was given it. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## What an input window's buffer holds when the body is called -/

/-- Window 0 is an input the body only reads and no point of the grid is idle for it, so its current buffer
    holds its block at every point: where the block was not fetched, the block index is the previous point's. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
/-- Window 1 is an input the body only reads and no point of the grid is idle for it, so its current buffer
    holds its block at every point: where the block was not fetched, the block index is the previous point's. -/
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
/-- Window 2 is an input the body only reads and no point of the grid is idle for it, so its current buffer
    holds its block at every point: where the block was not fetched, the block index is the previous point's. -/
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
/-- Window 3 is an input the body only reads and no point of the grid is idle for it, so its current buffer
    holds its block at every point: where the block was not fetched, the block index is the previous point's. -/
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
/-- Window 4 is an input the body only reads and no point of the grid is idle for it, so its current buffer
    holds its block at every point: where the block was not fetched, the block index is the previous point's. -/
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
/-- Window 5 is an input the body only reads and no point of the grid is idle for it, so its current buffer
    holds its block at every point: where the block was not fetched, the block index is the previous point's. -/
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
/-- Window 6 is an input the body only reads and no point of the grid is idle for it, so its current buffer
    holds its block at every point: where the block was not fetched, the block index is the previous point's. -/
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)
/-- Window 7 is an input the body only reads and no point of the grid is idle for it, so its current buffer
    holds its block at every point: where the block was not fetched, the block index is the previous point's. -/
theorem before7 (c : Dev nD) (t : Fin cfg0.N) (d) : (dats m 0 c).before 7 t d = iblk m c 7 t :=
  ((dats m 0 c).before_in_eq_fetched 7 rfl (fun _ => rfl) (fun _ _ _ => rfl)
    (fun t => by rw [after7]; unfold Dat.blockOf iblk; rw [A_eq]; try rfl) t d).trans
    (by unfold Dat.fetched Dat.blockOf iblk; rw [A_eq]; try rfl)
/-- Window 8 is an input the body only reads and no point of the grid is idle for it, so its current buffer
    holds its block at every point: where the block was not fetched, the block index is the previous point's. -/
theorem before8 (c : Dev nD) (t : Fin cfg0.N) (d) : (dats m 0 c).before 8 t d = iblk m c 8 t :=
  ((dats m 0 c).before_in_eq_fetched 8 rfl (fun _ => rfl) (fun _ _ _ => rfl)
    (fun t => by rw [after8]; unfold Dat.blockOf iblk; rw [A_eq]; try rfl) t d).trans
    (by unfold Dat.fetched Dat.blockOf iblk; rw [A_eq]; try rfl)

/-! ## The body's triple -/

set_option maxHeartbeats 1000000 in
/-- The body on ten whole staging buffers — the nine inputs' at contents `x0 … x8`, the result's at anything — runs
    to any continuation that takes the inputs' buffers back as they were and the result's at `out9 x0 … x8`. The
    body's one load of the result's buffer reads whatever is there and the value is not used; its one store covers
    the buffer (`cover9`), so nothing of the old contents is left. -/
theorem sound_kernel (c : Dev nD) (E : Set ℕ) (i : grid0.Coords) (a0 : Memref sig .tc .vmem S2048x128 .f32) (w0 : a0.IsWhole) (a1 : Memref sig .tc .vmem S2048x128 .f32) (w1 : a1.IsWhole) (a2 : Memref sig .tc .vmem S2048x128 .f32) (w2 : a2.IsWhole) (a3 : Memref sig .tc .vmem S2048x128 .f32) (w3 : a3.IsWhole) (a4 : Memref sig .tc .vmem S2048x3 .f32) (w4 : a4.IsWhole) (a5 : Memref sig .tc .vmem S515x512 .bf16) (w5 : a5.IsWhole) (a6 : Memref sig .tc .vmem S512 .f32) (w6 : a6.IsWhole) (a7 : Memref sig .tc .vmem S512x1 .bf16) (w7 : a7.IsWhole) (a8 : Memref sig .tc .vmem S1 .f32) (w8 : a8.IsWhole) (a9 : Memref sig .tc .vmem S2048 .f32) (w9 : a9.IsWhole)
    (x0 x1 x2 x3 : Vec F S2048x128 .f32) (x4 : Vec F S2048x3 .f32) (x5 : Vec F S515x512 .bf16) (x6 : Vec F S512 .f32) (x7 : Vec F S512x1 .bf16) (x8 : Vec F S1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (out9 x0 x1 x2 x3 x4 x5 x6 x7 x8)) -∗ K ⟨⟩))
      ⊢ wp frame (wpE (defs₀ (F := F)) Variants.none c none) E (cc0__mlp_kernel i a0 w0 a1 w1 a2 w2 a3 w3 a4 w4 a5 w5 a6 w6 a7 w7 a8 w8 a9 w9) K := by
  simp only [cc0__mlp_kernel_eq_skeleton]; unfold cc0__mlp_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, Hk⟩
  subst e0 e1 e2 e3 e4 e5 e6 e7 e8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover9 _)

/-! ## The body obligation -/

/-- What the body is called with at point `t`: the invariant, the core's debts, and each window's current buffer, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies at the blocks; the
    invariant and the debts are not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters, every weakly fair execution of @main on the TensorCores terminates, and at
    the end every array of the launch holds what the proof data compute and every other unscoped buffer what the
    launch found in it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At any final state of the run the twelve arguments are as given. Arguments 9 and 11 are the arrays of the two
    bias windows, inputs, whose arrays end as the launch found them; the other ten are arrays of no window and no
    scoped buffer, which the launch passes by. Each was as given when the launch was reached. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).1 6).trans (((dats m 0 c).arrAt_in 6 rfl _).trans ((A_eq m c 6).trans (V_main_arg9 m c))),
    ((h c).2 main_arg10 (Pipeline.mem_restRefs_of main_arg10 (by decide) (by decide))).trans (V_main_arg10 m c),
    ((h c).1 8).trans (((dats m 0 c).arrAt_in 8 rfl _).trans ((A_eq m c 8).trans (V_main_arg11 m c)))⟩

/-- @main terminates without fault and leaves its twelve arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => args_kept m r h c) (run_main m ρ)

end Cert.KernelIdeal.Hand

end
-- ==== Proof.LaunchDataBits.lean ====
/-
  The data of the one launch of the WORD-LEVEL program (the program as compiled, before floats are read as
  reals; its text is the idealized program's, operation for operation), stated once for any float instance.

  @main computes the four gathered embedding arrays, the stacked scalar features and the two transposed weight
  matrices on the host, then launches one kernel over 128 grid points. Point `t` is handed rows
  2048·t … 2048·t + 2047 of the four gathered arrays and of the scalar features, and the whole of both weight
  matrices and both biases; it writes entries 2048·t … 2048·t + 2047 of the result.

  `V` is what each buffer holds when the launch is reached; `iblk` a window's block at a point, read off `V`;
  `out9` what the kernel body leaves in the result's staging buffer, as a function of the nine blocks it loads
  (its single store covers the buffer); `dats` the launch's proof data: every input window's buffer is left at
  its block, the result's buffer at `out9` of the blocks.
-/
import proofs.«429534_j38465727103888_1_alg».proof.Proof.Gen.Kernel.Launch
import proofs.«429534_j38465727103888_1_alg».proof.Proof.Gen.Kernel.Skeleton
import proofs.«429534_j38465727103888_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffers when the launch is reached: after the four embedding look-ups and the eight operations
    that stack the scalar features and lay out the weights. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

/-- Window `w`'s block at point `t`, read off its array as the launch finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The whole of a 2048 × 128 block. -/
abbrev rE : Rect S2048x128 := Rect.unit (s := S2048x128) ![0, 0] S2048x128.size inb_S2048x128_S2048x128_0_0
/-- The whole of a 2048 × 3 block. -/
abbrev rS : Rect S2048x3 := Rect.unit (s := S2048x3) ![0, 0] S2048x3.size inb_S2048x3_S2048x3_0_0
/-- The whole 515 × 512 first-layer matrix. -/
abbrev rW1 : Rect S515x512 := Rect.unit (s := S515x512) ![0, 0] S515x512.size inb_S515x512_S515x512_0_0
/-- The whole first-layer bias. -/
abbrev rB1 : Rect S512 := Rect.unit (s := S512) ![0] S512.size inb_S512_S512_0
/-- The whole 512 × 1 second-layer matrix. -/
abbrev rW2 : Rect S512x1 := Rect.unit (s := S512x1) ![0, 0] S512x1.size inb_S512x1_S512x1_0_0
/-- The one-entry second-layer bias. -/
abbrev rB2 : Rect S1 := Rect.unit (s := S1) ![0] S1.size inb_S1_S1_0
/-- The whole 2048-entry result block. -/
abbrev rO : Rect S2048 := Rect.unit (s := S2048) ![0] S2048.size inb_S2048_S2048_0

/-- What the body leaves in the result's staging buffer, from the nine blocks it loads: its one store, which
    covers the buffer, of the scores of the block's 2048 rows. -/
def out9 (x0 x1 x2 x3 : Vec F S2048x128 .f32) (x4 : Vec F S2048x3 .f32) (x5 : Vec F S515x512 .bf16)
    (x6 : Vec F S512 .f32) (x7 : Vec F S512x1 .bf16) (x8 : Vec F S1 .f32) : Vec F S2048 .f32 :=
  View.canon [⟨rO, k0_pay1 (View.ld x0 rE) (View.ld x1 rE) (View.ld x2 rE) (View.ld x3 rE) (View.ld x4 rS)
    (View.ld x5 rW1) (View.ld x6 rB1) (View.ld x7 rW2) (View.ld x8 rB2)⟩]

/-- The one store tiles the result's buffer, so it covers it. -/
theorem cover9 (p0 : Vec F S2048 .f32) (y : S2048.Idx) :
    ∃ pc ∈ ([⟨rO, p0⟩] : List (View.Piece (Elt F) S2048 .f32)), y ∈ pc.1.set :=
  View.cover_of_tiled [⟨rO, p0⟩] S2048.size (by rfl) y

/-- The launch's proof data on core `c`: the arrays as the launch finds them; after the body at point `t` every
    input window's buffer still at its block and the result's at `out9` of the blocks; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t)
        (iblk m c 6 t) (iblk m c 7 t) (iblk m c 8 t)
  Φ _ := Pipeline.ΦA spec0 c
  q _ := fullShare
  owed _ := 0

/-- The proof data's arrays are the contents at the launch. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t =
    out9 (iblk m c 0 t) (iblk m c 1 t) (iblk m c 2 t) (iblk m c 3 t) (iblk m c 4 t) (iblk m c 5 t)
      (iblk m c 6 t) (iblk m c 7 t) (iblk m c 8 t) := by dsimp only [dats]

end Cert.Kernel.Hand

end
-- ==== Proof.LaunchRunBits.lean ====
/-
  The run of the WORD-LEVEL program's @main (the program as compiled; its text is the idealized program's,
  operation for operation), for any float instance: it terminates without fault, leaves its twelve argument
  arrays as it found them, and leaves every array of the launch at what the launch's proof data say.

  @main is five stretches of host operations followed by one launch. No host operation writes an argument array,
  so the launch finds each argument as @main was given it. The kernel body loads the whole of nine staging
  buffers, loads the result's staging buffer once without using what it read, and stores one value over the
  whole of the result's staging buffer; so from the nine blocks it leaves the inputs' buffers as they were and
  the result's at `out9` of the blocks, whatever the result's buffer held before. An input window's buffer holds
  the window's block at every point, whether the block was fetched at that point or at an earlier one (the
  weights and biases are fetched once, at the first point, and their block index never moves).
-/
import proofs.«429534_j38465727103888_1_alg».proof.Proof.LaunchDataBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- No host operation of the five stretches allocates a buffer. -/
theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor
theorem fresh4 : (hostOps0_4 : List (HloOp τ sig (Elt F))).Forall fun op => op.fresh = ∅ := by
  simp only [List.Forall]; repeat' constructor

/-- @main is its five host stretches and then the launch, which finds the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨fresh0, fresh1, fresh2, fresh3, fresh4⟩) main_chain

/-! ## The arguments at the launch

Every host operation writes one buffer, its result, and no result is an argument array. -/

/-- Argument 0 reaches the launch as @main was given it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 1 reaches the launch as @main was given it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 2 reaches the launch as @main was given it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 3 reaches the launch as @main was given it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 4 reaches the launch as @main was given it. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 5 reaches the launch as @main was given it. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 6 reaches the launch as @main was given it. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 7 reaches the launch as @main was given it. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 8 reaches the launch as @main was given it. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 9 reaches the launch as @main was given it. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 10 reaches the launch as @main was given it. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 11 reaches the launch as @main was given it. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## What an input window's buffer holds when the body is called -/

/-- Window 0 is an input the body only reads and no point of the grid is idle for it, so its current buffer
    holds its block at every point: where the block was not fetched, the block index is the previous point's. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
/-- Window 1 is an input the body only reads and no point of the grid is idle for it, so its current buffer
    holds its block at every point: where the block was not fetched, the block index is the previous point's. -/
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
/-- Window 2 is an input the body only reads and no point of the grid is idle for it, so its current buffer
    holds its block at every point: where the block was not fetched, the block index is the previous point's. -/
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
/-- Window 3 is an input the body only reads and no point of the grid is idle for it, so its current buffer
    holds its block at every point: where the block was not fetched, the block index is the previous point's. -/
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
/-- Window 4 is an input the body only reads and no point of the grid is idle for it, so its current buffer
    holds its block at every point: where the block was not fetched, the block index is the previous point's. -/
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
/-- Window 5 is an input the body only reads and no point of the grid is idle for it, so its current buffer
    holds its block at every point: where the block was not fetched, the block index is the previous point's. -/
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
/-- Window 6 is an input the body only reads and no point of the grid is idle for it, so its current buffer
    holds its block at every point: where the block was not fetched, the block index is the previous point's. -/
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)
/-- Window 7 is an input the body only reads and no point of the grid is idle for it, so its current buffer
    holds its block at every point: where the block was not fetched, the block index is the previous point's. -/
theorem before7 (c : Dev nD) (t : Fin cfg0.N) (d) : (dats m 0 c).before 7 t d = iblk m c 7 t :=
  ((dats m 0 c).before_in_eq_fetched 7 rfl (fun _ => rfl) (fun _ _ _ => rfl)
    (fun t => by rw [after7]; unfold Dat.blockOf iblk; rw [A_eq]; try rfl) t d).trans
    (by unfold Dat.fetched Dat.blockOf iblk; rw [A_eq]; try rfl)
/-- Window 8 is an input the body only reads and no point of the grid is idle for it, so its current buffer
    holds its block at every point: where the block was not fetched, the block index is the previous point's. -/
theorem before8 (c : Dev nD) (t : Fin cfg0.N) (d) : (dats m 0 c).before 8 t d = iblk m c 8 t :=
  ((dats m 0 c).before_in_eq_fetched 8 rfl (fun _ => rfl) (fun _ _ _ => rfl)
    (fun t => by rw [after8]; unfold Dat.blockOf iblk; rw [A_eq]; try rfl) t d).trans
    (by unfold Dat.fetched Dat.blockOf iblk; rw [A_eq]; try rfl)

/-! ## The body's triple -/

set_option maxHeartbeats 1000000 in
/-- The body on ten whole staging buffers — the nine inputs' at contents `x0 … x8`, the result's at anything — runs
    to any continuation that takes the inputs' buffers back as they were and the result's at `out9 x0 … x8`. The
    body's one load of the result's buffer reads whatever is there and the value is not used; its one store covers
    the buffer (`cover9`), so nothing of the old contents is left. -/
theorem sound_kernel (c : Dev nD) (E : Set ℕ) (i : grid0.Coords) (a0 : Memref sig .tc .vmem S2048x128 .f32) (w0 : a0.IsWhole) (a1 : Memref sig .tc .vmem S2048x128 .f32) (w1 : a1.IsWhole) (a2 : Memref sig .tc .vmem S2048x128 .f32) (w2 : a2.IsWhole) (a3 : Memref sig .tc .vmem S2048x128 .f32) (w3 : a3.IsWhole) (a4 : Memref sig .tc .vmem S2048x3 .f32) (w4 : a4.IsWhole) (a5 : Memref sig .tc .vmem S515x512 .bf16) (w5 : a5.IsWhole) (a6 : Memref sig .tc .vmem S512 .f32) (w6 : a6.IsWhole) (a7 : Memref sig .tc .vmem S512x1 .bf16) (w7 : a7.IsWhole) (a8 : Memref sig .tc .vmem S1 .f32) (w8 : a8.IsWhole) (a9 : Memref sig .tc .vmem S2048 .f32) (w9 : a9.IsWhole)
    (x0 x1 x2 x3 : Vec F S2048x128 .f32) (x4 : Vec F S2048x3 .f32) (x5 : Vec F S515x512 .bf16) (x6 : Vec F S512 .f32) (x7 : Vec F S512x1 .bf16) (x8 : Vec F S1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (out9 x0 x1 x2 x3 x4 x5 x6 x7 x8)) -∗ K ⟨⟩))
      ⊢ wp frame (wpE (defs₀ (F := F)) Variants.none c none) E (cc0__mlp_kernel i a0 w0 a1 w1 a2 w2 a3 w3 a4 w4 a5 w5 a6 w6 a7 w7 a8 w8 a9 w9) K := by
  simp only [cc0__mlp_kernel_eq_skeleton]; unfold cc0__mlp_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, Hk⟩
  subst e0 e1 e2 e3 e4 e5 e6 e7 e8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover9 _)

/-! ## The body obligation -/

/-- What the body is called with at point `t`: the invariant, the core's debts, and each window's current buffer, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies at the blocks; the
    invariant and the debts are not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters, every weakly fair execution of @main on the TensorCores terminates, and at
    the end every array of the launch holds what the proof data compute and every other unscoped buffer what the
    launch found in it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At any final state of the run the twelve arguments are as given. Arguments 9 and 11 are the arrays of the two
    bias windows, inputs, whose arrays end as the launch found them; the other ten are arrays of no window and no
    scoped buffer, which the launch passes by. Each was as given when the launch was reached. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).1 6).trans (((dats m 0 c).arrAt_in 6 rfl _).trans ((A_eq m c 6).trans (V_main_arg9 m c))),
    ((h c).2 main_arg10 (Pipeline.mem_restRefs_of main_arg10 (by decide) (by decide))).trans (V_main_arg10 m c),
    ((h c).1 8).trans (((dats m 0 c).arrAt_in 8 rfl _).trans ((A_eq m c 8).trans (V_main_arg11 m c)))⟩

/-- @main terminates without fault and leaves its twelve arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => args_kept m r h c) (run_main m ρ)

end Cert.Kernel.Hand

end
-- ==== Proof.Score.lean ====
/-
  The scorer both programs compute, as one function of plain coordinates.

  A candidate's feature row has 515 entries: four embedding rows of 128 entries each (target, original, left and
  right item), then three scalar features. The score is a two-layer perceptron of that row,
    score x = (∑ j, max (∑ k, x k · W1 j k + b1 j) 0 · W2 j) + b2,
  with 512 hidden units, read on the extended reals: sums, products and the maximum are the extended reals' own,
  so no law beyond the commutative monoid's is used to state it, and none is needed to compare the two programs,
  which both compute it in this association.
-/
import Idealize.ShloMosaic.PureOps.Ideal
import Idealize.ShloMosaic.Lib.ValueIdx

noncomputable section

namespace Cert.Score

open Idealize.ShloMosaic

/-- A row number of the 100000-row embedding table in the indexing convention both programs follow: `0 … 99999`
    counts from the first row, `-100000 … -1` from the last (`-1` is row 99999). -/
def InRange (x : BitVec 32) : Prop := -100000 ≤ x.toInt ∧ x.toInt < 100000

/-- The feature row: entries 0–127 the first embedding row, 128–255 the second, 256–383 the third, 384–511 the
    fourth, 512–514 the three scalar features. -/
def feat (g0 g1 g2 g3 : Fin 128 → EReal) (p : Fin 3 → EReal) : Fin 515 → EReal := fun k =>
  if h0 : k.val < 128 then g0 ⟨k.val, h0⟩
  else if h1 : k.val < 256 then g1 ⟨k.val - 128, by omega⟩
  else if h2 : k.val < 384 then g2 ⟨k.val - 256, by omega⟩
  else if h3 : k.val < 512 then g3 ⟨k.val - 384, by omega⟩
  else p ⟨k.val - 512, by have := k.isLt; omega⟩

/-- The hidden layer's unit `j`: the affine form of the feature row, cut off below at zero. -/
def hidden (x : Fin 515 → EReal) (w1 : Fin 512 → Fin 515 → EReal) (b1 : Fin 512 → EReal) (j : Fin 512) : EReal :=
  max ((∑ k : Fin 515, x k * w1 j k) + b1 j) 0

/-- The score of a feature row: the output layer's affine form of the hidden units. -/
def score (x : Fin 515 → EReal) (w1 : Fin 512 → Fin 515 → EReal) (b1 : Fin 512 → EReal) (w2 : Fin 512 → EReal)
    (b2 : EReal) : EReal :=
  (∑ j : Fin 512, hidden x w1 b1 j * w2 j) + b2

theorem feat_lt128 (g0 g1 g2 g3 : Fin 128 → EReal) (p : Fin 3 → EReal) (k : Fin 515) (h : k.val < 128) :
    feat g0 g1 g2 g3 p k = g0 ⟨k.val, h⟩ := by
  unfold feat; rw [dif_pos h]

theorem feat_lt256 (g0 g1 g2 g3 : Fin 128 → EReal) (p : Fin 3 → EReal) (k : Fin 515) (h0 : 128 ≤ k.val)
    (h : k.val < 256) : feat g0 g1 g2 g3 p k = g1 ⟨k.val - 128, by omega⟩ := by
  unfold feat; rw [dif_neg (by omega), dif_pos h]

theorem feat_lt384 (g0 g1 g2 g3 : Fin 128 → EReal) (p : Fin 3 → EReal) (k : Fin 515) (h0 : 256 ≤ k.val)
    (h : k.val < 384) : feat g0 g1 g2 g3 p k = g2 ⟨k.val - 256, by omega⟩ := by
  unfold feat; rw [dif_neg (by omega), dif_neg (by omega), dif_pos h]

theorem feat_lt512 (g0 g1 g2 g3 : Fin 128 → EReal) (p : Fin 3 → EReal) (k : Fin 515) (h0 : 384 ≤ k.val)
    (h : k.val < 512) : feat g0 g1 g2 g3 p k = g3 ⟨k.val - 384, by omega⟩ := by
  unfold feat; rw [dif_neg (by omega), dif_neg (by omega), dif_neg (by omega), dif_pos h]

theorem feat_ge512 (g0 g1 g2 g3 : Fin 128 → EReal) (p : Fin 3 → EReal) (k : Fin 515) (h0 : 512 ≤ k.val) :
    feat g0 g1 g2 g3 p k = p ⟨k.val - 512, by have := k.isLt; omega⟩ := by
  unfold feat; rw [dif_neg (by omega), dif_neg (by omega), dif_neg (by omega), dif_neg (by omega)]

end Cert.Score

end
-- ==== Proof.PayloadAt.lean ====
/-
  The kernel body's arithmetic, read at one row.

  The body joins four 2048×128 blocks and one 2048×3 block along the second axis into a 2048×515 matrix X, multiplies
  it by the 515×512 matrix W1, adds the bias b1 along every row, cuts off below at zero, multiplies by the 512×1
  column W2, adds the bias b2 and drops the unit axis. Read at row r this is
    (∑ j, max ((∑ k, X r k · W1 k j) + b1 j) 0 · W2 j 0) + b2,
  the score of the feature row X r against the weights read by coordinates. Each step is read at explicit
  coordinates: the join by the piece whose span holds the column, each product by re-indexing its sum over the
  contraction index to a sum over the columns, the biases through their reshaping and row broadcast, and the last
  reshaping by its row-major position. On the extended reals the narrowing to the shorter float format is the identity.
-/
import proofs.«429534_j38465727103888_1_alg».proof.Proof.Gen.KernelIdeal.Skeleton
import proofs.«429534_j38465727103888_1_alg».proof.Proof.Score
import Idealize.ShloMosaic.Lib.ValueIdx
import Idealize.ShloMosaic.Lib.Pipeline.Value
import Idealize.ShloMosaic.PureOps.Ideal.Laws

noncomputable section

namespace Cert.KernelIdeal.PayloadAt

open Cert.KernelIdeal Cert.KernelIdeal.Gen Idealize.ShloMosaic Idealize.ShloMosaic.ValueIdx Idealize.SL.Sem

/-! ## The join of the five blocks at a row and a column -/

/-- The joined 2048×515 matrix at row \`r\`, column \`k\`, is the feature row of the five blocks' rows \`r\`, at \`k\`: the
    piece whose span along the second axis holds \`k\`, at \`k\` less the widths before it. -/
theorem concat_apply (v0 v2 v4 v6 : FVec Ideal S2048x128 .f32) (v8 : FVec Ideal S2048x3 .f32) (r : Fin 2048) (k : Fin 515) :
    concatenate S2048x515 1 [⟨S2048x128, v0⟩, ⟨S2048x128, v2⟩, ⟨S2048x128, v4⟩, ⟨S2048x128, v6⟩, ⟨S2048x3, v8⟩]
        concatenates_S2048x128_S2048x128_S2048x128_S2048x128_S2048x3_S2048x515_d1 (ix2 r k)
      = Cert.Score.feat (fun q => v0 (ix2 r q)) (fun q => v2 (ix2 r q)) (fun q => v4 (ix2 r q)) (fun q => v6 (ix2 r q))
          (fun q => v8 (ix2 r q)) k := by
  have hk := k.isLt
  by_cases h0 : k.val < 128
  · -- columns 0 … 127: the first block
    rw [Cert.Score.feat_lt128 _ _ _ _ _ k h0]
    exact concatenate_apply_piece (1 : Fin S2048x515.rank)
      [⟨S2048x128, v0⟩, ⟨S2048x128, v2⟩, ⟨S2048x128, v4⟩, ⟨S2048x128, v6⟩, ⟨S2048x3, v8⟩]
      concatenates_S2048x128_S2048x128_S2048x128_S2048x128_S2048x3_S2048x515_d1 (ix2 r k) 0 (by show (0 : Nat) < 5; decide) S2048x128 v0 rfl rfl
      0 rfl (ix2 r (⟨k.val, h0⟩ : Fin 128))
      (fun b hb => match b, hb with
        | ⟨0, _⟩, _ => rfl
        | ⟨1, _⟩, hb => absurd (Fin.ext rfl) hb)
      (by show 0 + k.val = k.val; omega)
  by_cases h1 : k.val < 256
  · -- columns 128 … 255: the second block
    rw [Cert.Score.feat_lt256 _ _ _ _ _ k (by omega) h1]
    exact concatenate_apply_piece (1 : Fin S2048x515.rank)
      [⟨S2048x128, v0⟩, ⟨S2048x128, v2⟩, ⟨S2048x128, v4⟩, ⟨S2048x128, v6⟩, ⟨S2048x3, v8⟩]
      concatenates_S2048x128_S2048x128_S2048x128_S2048x128_S2048x3_S2048x515_d1 (ix2 r k) 1 (by show (1 : Nat) < 5; decide) S2048x128 v2 rfl rfl
      128 rfl (ix2 r (⟨k.val - 128, by omega⟩ : Fin 128))
      (fun b hb => match b, hb with
        | ⟨0, _⟩, _ => rfl
        | ⟨1, _⟩, hb => absurd (Fin.ext rfl) hb)
      (by show 128 + (k.val - 128) = k.val; omega)
  by_cases h2 : k.val < 384
  · -- columns 256 … 383: the third block
    rw [Cert.Score.feat_lt384 _ _ _ _ _ k (by omega) h2]
    exact concatenate_apply_piece (1 : Fin S2048x515.rank)
      [⟨S2048x128, v0⟩, ⟨S2048x128, v2⟩, ⟨S2048x128, v4⟩, ⟨S2048x128, v6⟩, ⟨S2048x3, v8⟩]
      concatenates_S2048x128_S2048x128_S2048x128_S2048x128_S2048x3_S2048x515_d1 (ix2 r k) 2 (by show (2 : Nat) < 5; decide) S2048x128 v4 rfl rfl
      256 rfl (ix2 r (⟨k.val - 256, by omega⟩ : Fin 128))
      (fun b hb => match b, hb with
        | ⟨0, _⟩, _ => rfl
        | ⟨1, _⟩, hb => absurd (Fin.ext rfl) hb)
      (by show 256 + (k.val - 256) = k.val; omega)
  by_cases h3 : k.val < 512
  · -- columns 384 … 511: the fourth block
    rw [Cert.Score.feat_lt512 _ _ _ _ _ k (by omega) h3]
    exact concatenate_apply_piece (1 : Fin S2048x515.rank)
      [⟨S2048x128, v0⟩, ⟨S2048x128, v2⟩, ⟨S2048x128, v4⟩, ⟨S2048x128, v6⟩, ⟨S2048x3, v8⟩]
      concatenates_S2048x128_S2048x128_S2048x128_S2048x128_S2048x3_S2048x515_d1 (ix2 r k) 3 (by show (3 : Nat) < 5; decide) S2048x128 v6 rfl rfl
      384 rfl (ix2 r (⟨k.val - 384, by omega⟩ : Fin 128))
      (fun b hb => match b, hb with
        | ⟨0, _⟩, _ => rfl
        | ⟨1, _⟩, hb => absurd (Fin.ext rfl) hb)
      (by show 384 + (k.val - 384) = k.val; omega)
  · -- columns 512 … 514: the three scalar features
    rw [Cert.Score.feat_ge512 _ _ _ _ _ k (by omega)]
    exact concatenate_apply_piece (1 : Fin S2048x515.rank)
      [⟨S2048x128, v0⟩, ⟨S2048x128, v2⟩, ⟨S2048x128, v4⟩, ⟨S2048x128, v6⟩, ⟨S2048x3, v8⟩]
      concatenates_S2048x128_S2048x128_S2048x128_S2048x128_S2048x3_S2048x515_d1 (ix2 r k) 4 (by show (4 : Nat) < 5; decide) S2048x3 v8 rfl rfl
      512 rfl (ix2 r (⟨k.val - 512, by omega⟩ : Fin 3))
      (fun b hb => match b, hb with
        | ⟨0, _⟩, _ => rfl
        | ⟨1, _⟩, hb => absurd (Fin.ext rfl) hb)
      (by show 512 + (k.val - 512) = k.val; omega)

/-! ## The first product at a row and a column -/

theorem lhs_mm1_0 (i : S2048x512.Idx) (q : dot_S2048x515_S515x512_S2048x512_1_0_0_1_n_n.contr.Idx) :
    (dot_S2048x515_S515x512_S2048x512_1_0_0_1_n_n.lhsIdx i q 0).val = (i 0).val := by
  unfold DotDims.lhsIdx
  rw [dif_neg (show ¬(0 : Fin S2048x515.rank) ∈ dot_S2048x515_S515x512_S2048x512_1_0_0_1_n_n.lhsBatch by decide), dif_pos (show (0 : Fin S2048x515.rank) ∈ dot_S2048x515_S515x512_S2048x512_1_0_0_1_n_n.lhsNonContracting by decide)]
  rfl
theorem lhs_mm1_1 (i : S2048x512.Idx) (q : dot_S2048x515_S515x512_S2048x512_1_0_0_1_n_n.contr.Idx) :
    (dot_S2048x515_S515x512_S2048x512_1_0_0_1_n_n.lhsIdx i q 1).val = (q ⟨0, by decide⟩).val :=
  dot_S2048x515_S515x512_S2048x512_1_0_0_1_n_n.lhsIdx_val_of_single rfl i q
theorem rhs_mm1_0 (i : S2048x512.Idx) (q : dot_S2048x515_S515x512_S2048x512_1_0_0_1_n_n.contr.Idx) :
    (dot_S2048x515_S515x512_S2048x512_1_0_0_1_n_n.rhsIdx i q 0).val = (q ⟨0, by decide⟩).val :=
  dot_S2048x515_S515x512_S2048x512_1_0_0_1_n_n.rhsIdx_val_of_single rfl i q
theorem rhs_mm1_1 (i : S2048x512.Idx) (q : dot_S2048x515_S515x512_S2048x512_1_0_0_1_n_n.contr.Idx) :
    (dot_S2048x515_S515x512_S2048x512_1_0_0_1_n_n.rhsIdx i q 1).val = (i 1).val := by
  unfold DotDims.rhsIdx
  rw [dif_neg (show ¬(1 : Fin S515x512.rank) ∈ dot_S2048x515_S515x512_S2048x512_1_0_0_1_n_n.rhsBatch by decide), dif_pos (show (1 : Fin S515x512.rank) ∈ dot_S2048x515_S515x512_S2048x512_1_0_0_1_n_n.rhsNonContracting by decide)]
  rfl

/-- The 2048×515 by 515×512 product into the zero matrix, at row \`r\` and column \`j\`: the sum over the 515 columns of
    the left operand's row \`r\` times the right operand's column \`j\`. -/
theorem mm1_apply (x : FVec Ideal S2048x515 .bf16) (w : FVec Ideal S515x512 .bf16) (r : Fin 2048) (j : Fin 512) :
    matmul dot_S2048x515_S515x512_S2048x512_1_0_0_1_n_n none x w (constant (F := Ideal) S2048x512 .f32 0x00000000#32) (ix2 r j)
      = ∑ k : Fin 515, x (ix2 r k) * w (ix2 k j) := by
  simp only [matmul]
  rw [Ideal.matmul_constant_zero_apply, ← Equiv.sum_comp (contrEquiv1 dot_S2048x515_S515x512_S2048x512_1_0_0_1_n_n 515 rfl rfl).symm]
  refine Finset.sum_congr rfl fun k _ => ?_
  have hk := contrEquiv1_symm_val dot_S2048x515_S515x512_S2048x512_1_0_0_1_n_n 515 rfl rfl k
  have el : dot_S2048x515_S515x512_S2048x512_1_0_0_1_n_n.lhsIdx (ix2 r j) ((contrEquiv1 dot_S2048x515_S515x512_S2048x512_1_0_0_1_n_n 515 rfl rfl).symm k) = ix2 r k := funext fun a => Fin.ext (by
    match a with
    | ⟨0, _⟩ => exact lhs_mm1_0 _ _
    | ⟨1, _⟩ => exact (lhs_mm1_1 _ _).trans hk)
  have er : dot_S2048x515_S515x512_S2048x512_1_0_0_1_n_n.rhsIdx (ix2 r j) ((contrEquiv1 dot_S2048x515_S515x512_S2048x512_1_0_0_1_n_n 515 rfl rfl).symm k) = ix2 k j := funext fun a => Fin.ext (by
    match a with
    | ⟨0, _⟩ => exact (rhs_mm1_0 _ _).trans hk
    | ⟨1, _⟩ => exact rhs_mm1_1 _ _)
  rw [el, er]

/-! ## The second product at a row -/

theorem lhs_mm2_0 (i : S2048x1.Idx) (q : dot_S2048x512_S512x1_S2048x1_1_0_0_1_n_n.contr.Idx) :
    (dot_S2048x512_S512x1_S2048x1_1_0_0_1_n_n.lhsIdx i q 0).val = (i 0).val := by
  unfold DotDims.lhsIdx
  rw [dif_neg (show ¬(0 : Fin S2048x512.rank) ∈ dot_S2048x512_S512x1_S2048x1_1_0_0_1_n_n.lhsBatch by decide), dif_pos (show (0 : Fin S2048x512.rank) ∈ dot_S2048x512_S512x1_S2048x1_1_0_0_1_n_n.lhsNonContracting by decide)]
  rfl
theorem lhs_mm2_1 (i : S2048x1.Idx) (q : dot_S2048x512_S512x1_S2048x1_1_0_0_1_n_n.contr.Idx) :
    (dot_S2048x512_S512x1_S2048x1_1_0_0_1_n_n.lhsIdx i q 1).val = (q ⟨0, by decide⟩).val :=
  dot_S2048x512_S512x1_S2048x1_1_0_0_1_n_n.lhsIdx_val_of_single rfl i q
theorem rhs_mm2_0 (i : S2048x1.Idx) (q : dot_S2048x512_S512x1_S2048x1_1_0_0_1_n_n.contr.Idx) :
    (dot_S2048x512_S512x1_S2048x1_1_0_0_1_n_n.rhsIdx i q 0).val = (q ⟨0, by decide⟩).val :=
  dot_S2048x512_S512x1_S2048x1_1_0_0_1_n_n.rhsIdx_val_of_single rfl i q
theorem rhs_mm2_1 (i : S2048x1.Idx) (q : dot_S2048x512_S512x1_S2048x1_1_0_0_1_n_n.contr.Idx) :
    (dot_S2048x512_S512x1_S2048x1_1_0_0_1_n_n.rhsIdx i q 1).val = (i 1).val := by
  unfold DotDims.rhsIdx
  rw [dif_neg (show ¬(1 : Fin S512x1.rank) ∈ dot_S2048x512_S512x1_S2048x1_1_0_0_1_n_n.rhsBatch by decide), dif_pos (show (1 : Fin S512x1.rank) ∈ dot_S2048x512_S512x1_S2048x1_1_0_0_1_n_n.rhsNonContracting by decide)]
  rfl

/-- The 2048×512 by 512×1 product into the zero column, at row \`r\`: the sum over the 512 hidden units of the left
    operand's row \`r\` times the right operand's one column. -/
theorem mm2_apply (x : FVec Ideal S2048x512 .bf16) (w : FVec Ideal S512x1 .bf16) (r : Fin 2048) :
    matmul dot_S2048x512_S512x1_S2048x1_1_0_0_1_n_n none x w (constant (F := Ideal) S2048x1 .f32 0x00000000#32) (ix2 r (0 : Fin 1))
      = ∑ j : Fin 512, x (ix2 r j) * w (ix2 j (0 : Fin 1)) := by
  simp only [matmul]
  rw [Ideal.matmul_constant_zero_apply, ← Equiv.sum_comp (contrEquiv1 dot_S2048x512_S512x1_S2048x1_1_0_0_1_n_n 512 rfl rfl).symm]
  refine Finset.sum_congr rfl fun k _ => ?_
  have hk := contrEquiv1_symm_val dot_S2048x512_S512x1_S2048x1_1_0_0_1_n_n 512 rfl rfl k
  have el : dot_S2048x512_S512x1_S2048x1_1_0_0_1_n_n.lhsIdx (ix2 r (0 : Fin 1)) ((contrEquiv1 dot_S2048x512_S512x1_S2048x1_1_0_0_1_n_n 512 rfl rfl).symm k) = ix2 r k := funext fun a => Fin.ext (by
    match a with
    | ⟨0, _⟩ => exact lhs_mm2_0 _ _
    | ⟨1, _⟩ => exact (lhs_mm2_1 _ _).trans hk)
  have er : dot_S2048x512_S512x1_S2048x1_1_0_0_1_n_n.rhsIdx (ix2 r (0 : Fin 1)) ((contrEquiv1 dot_S2048x512_S512x1_S2048x1_1_0_0_1_n_n 512 rfl rfl).symm k) = ix2 k (0 : Fin 1) := funext fun a => Fin.ext (by
    match a with
    | ⟨0, _⟩ => exact (rhs_mm2_0 _ _).trans hk
    | ⟨1, _⟩ => exact rhs_mm2_1 _ _)
  rw [el, er]

/-! ## The biases and the last reshaping at coordinates -/

/-- The 512-entry bias, reshaped to one row and broadcast over the 2048 rows, at row \`r\` and column \`j\` is its entry \`j\`. -/
theorem bias1_apply (b : FVec Ideal S512 .f32) (r : Fin 2048) (j : Fin 512) :
    broadcastTo S2048x512 (shapeCast S1x512 b shapeCasts_S512_S1x512) broadcasts_S1x512_S2048x512 (ix2 r j) = b (ix1 j) := by
  refine (broadcastTo_apply (shapeCast S1x512 b shapeCasts_S512_S1x512) broadcasts_S1x512_S2048x512 (ix2 r j) (ix2 (0 : Fin 1) j)
    (fun a => match a with
      | ⟨0, _⟩ => by show 0 = if (1 : Nat) = 1 then 0 else r.val; rw [if_pos rfl]
      | ⟨1, _⟩ => by show j.val = if (512 : Nat) = 1 then 0 else j.val; rw [if_neg (by decide)])).trans ?_
  exact shapeCast_apply b shapeCasts_S512_S1x512 (ix2 (0 : Fin 1) j) (ix1 j)
    (by rw [Shape.rowMajor_val_one, Shape.rowMajor_val_two]; show j.val = 0 * 512 + j.val; omega)

/-- The 1-entry bias, reshaped to 1×1 and broadcast over the 2048 rows, at row \`r\` is its one entry. -/
theorem bias2_apply (b : FVec Ideal S1 .f32) (r : Fin 2048) :
    broadcastTo S2048x1 (shapeCast S1x1 b shapeCasts_S1_S1x1) broadcasts_S1x1_S2048x1 (ix2 r (0 : Fin 1)) = b (ix1 (0 : Fin 1)) := by
  refine (broadcastTo_apply (shapeCast S1x1 b shapeCasts_S1_S1x1) broadcasts_S1x1_S2048x1 (ix2 r (0 : Fin 1)) (ix2 (0 : Fin 1) (0 : Fin 1))
    (fun a => match a with
      | ⟨0, _⟩ => by show 0 = if (1 : Nat) = 1 then 0 else r.val; rw [if_pos rfl]
      | ⟨1, _⟩ => by show 0 = if (1 : Nat) = 1 then 0 else 0; rw [if_pos rfl])).trans ?_
  exact shapeCast_apply b shapeCasts_S1_S1x1 (ix2 (0 : Fin 1) (0 : Fin 1)) (ix1 (0 : Fin 1))
    (by rw [Shape.rowMajor_val_one, Shape.rowMajor_val_two]; show 0 = 0 * 1 + 0; omega)

/-- The 2048×1 column reshaped to 2048 entries, at \`r\`, is the column at row \`r\`. -/
theorem col_apply (y : FVec Ideal S2048x1 .f32) (r : Fin 2048) :
    shapeCast S2048 y shapeCasts_S2048x1_S2048 (ix1 r) = y (ix2 r (0 : Fin 1)) :=
  shapeCast_apply y shapeCasts_S2048x1_S2048 (ix1 r) (ix2 r (0 : Fin 1))
    (by rw [Shape.rowMajor_val_two, Shape.rowMajor_val_one]; show r.val * 1 + 0 = r.val; omega)

/-! ## The payload at a row -/

/-- The body's one payload at row \`r\` is the score of the feature row read off the five blocks at row \`r\`, against the
    weights and biases read by coordinates. -/
theorem pay_apply (v0 v2 v4 v6 : Vec Ideal S2048x128 .f32) (v8 : Vec Ideal S2048x3 .f32) (v12 : Vec Ideal S515x512 .bf16)
    (v15 : Vec Ideal S512 .f32) (v22 : Vec Ideal S512x1 .bf16) (v25 : Vec Ideal S1 .f32) (r : Fin 2048) :
    Cert.KernelIdeal.Gen.k0_pay1 (F := Ideal) v0 v2 v4 v6 v8 v12 v15 v22 v25 (ValueIdx.ix1 r)
      = Cert.Score.score
          (Cert.Score.feat (fun k => v0 (ValueIdx.ix2 r k)) (fun k => v2 (ValueIdx.ix2 r k)) (fun k => v4 (ValueIdx.ix2 r k))
            (fun k => v6 (ValueIdx.ix2 r k)) (fun q => v8 (ValueIdx.ix2 r q)))
          (fun j k => v12 (ValueIdx.ix2 k j)) (fun j => v15 (ValueIdx.ix1 j)) (fun j => v22 (ValueIdx.ix2 j 0))
          (v25 (ValueIdx.ix1 0)) := by
  unfold Cert.KernelIdeal.Gen.k0_pay1
  -- the reshapings of a shape to itself are the identity
  rw [shapeCast_self v0 shapeCasts_S2048x128_S2048x128, shapeCast_self v2 shapeCasts_S2048x128_S2048x128,
    shapeCast_self v4 shapeCasts_S2048x128_S2048x128, shapeCast_self v6 shapeCasts_S2048x128_S2048x128,
    shapeCast_self v8 shapeCasts_S2048x3_S2048x3, shapeCast_self v12 shapeCasts_S515x512_S515x512,
    shapeCast_self v22 shapeCasts_S512x1_S512x1]
  -- the output layer at row r
  rw [col_apply, addf_apply, bias2_apply, mm2_apply]
  unfold Cert.Score.score
  refine congrArg (· + v25 (ix1 (0 : Fin 1))) (Finset.sum_congr rfl fun j _ => ?_)
  -- the hidden unit j at row r
  rw [truncf_apply, maximumf_apply, addf_apply, bias1_apply, mm1_apply, broadcast_apply]
  unfold Cert.Score.hidden
  -- inside the sum: the narrowing is the identity and the joined row is the feature row; the cut-off constant is zero
  have hz : FloatOps.ofBits (F := Ideal) .f32 0x00000000#32 = (0 : EReal) := Ideal.ofBits_zero_f32
  rw [hz]
  refine congrArg (fun s : EReal => max (s + v15 (ix1 j)) 0 * v22 (ix2 j (0 : Fin 1))) (Finset.sum_congr rfl fun k _ => ?_)
  rw [truncf_apply, concat_apply]

end Cert.KernelIdeal.PayloadAt

end
-- ==== Proof.ResultArray.lean ====
/-
  The result array after the kernel program's run is the array of scores.

  Point `t` of the grid is handed rows 2048·t … 2048·t + 2047 of the four gathered embedding arrays and of the
  stacked scalar features, and the whole weights and biases; the body's one payload, read at row `r`, is the score
  of the feature row it was handed, that is of candidate 2048·t + r. So what point `t` writes back is block `t` of
  ONE whole-array function, the array of scores; the 128 blocks tile the 262144 entries (entry `n` lies in block
  `n / 2048`), and the array ends holding that function.
-/
import proofs.«429534_j38465727103888_1_alg».proof.Proof.LaunchData
import proofs.«429534_j38465727103888_1_alg».proof.Proof.Score
import proofs.«429534_j38465727103888_1_alg».proof.Proof.PayloadAt
import Idealize.ShloMosaic.Lib.Pipeline.Value
import Idealize.ShloMosaic.Lib.ValueIdx

set_option maxRecDepth 16384

noncomputable section

namespace Cert.KernelIdeal.ResultArray

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem off1 : (![0] : Fin 1 → Nat) = fun _ => 0 := funext fun a => by fin_cases a <;> rfl
theorem off2 : (![0, 0] : Fin 2 → Nat) = fun _ => 0 := funext fun a => by fin_cases a <;> rfl

/-- The score of candidate `n` from nine arrays: its feature row is row `n` of the four gathered arrays and of the
    stacked scalar features; the weights are read transposed, as the kernel is handed them. -/
def scoreOf (A0 A1 A2 A3 : S262144x128.Idx → EReal) (A4 : S262144x3.Idx → EReal) (A5 : S515x512.Idx → EReal)
    (A6 : S512.Idx → EReal) (A7 : S512x1.Idx → EReal) (A8 : S1.Idx → EReal) (n : Fin 262144) : EReal :=
  Cert.Score.score
    (Cert.Score.feat (fun k => A0 (ix2 n k)) (fun k => A1 (ix2 n k)) (fun k => A2 (ix2 n k)) (fun k => A3 (ix2 n k))
      (fun q => A4 (ix2 n q)))
    (fun j k => A5 (ix2 k j)) (fun j => A6 (ix1 j)) (fun j => A7 (ix2 j 0)) (A8 (ix1 0))

/-- The score of candidate `n` from the arrays as the launch finds them. -/
def scoreAt (c : Dev nD) (n : Fin 262144) : EReal :=
  scoreOf (V m c main_v0) (V m c main_v1) (V m c main_v2) (V m c main_v3) (V m c main_v7) (V m c main_v9)
    (V m c main_arg9) (V m c main_v11) (V m c main_arg11) n

/-- The whole result array: entry `n` is candidate `n`'s score. -/
def scores (c : Dev nD) : S262144.Idx → EReal := fun i => scoreAt m c (i 0)

/-- The printed index maps over the grid: the row-blocked windows sit at block `t` of their first axis and block 0 of
    their second, the weights and biases at block 0, the result at block `t`. -/
theorem idx_facts : ∀ t : Fin cfg0.N,
    win0_9.index t (0 : Fin 1) = t.val
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-- Row `r` of point `t`'s blocks is candidate `2048·t + r`. -/
def row (t : Fin cfg0.N) (r : Fin 2048) : Fin 262144 :=
  ⟨t.val * 2048 + r.val, by have := t.isLt; have h : cfg0.N = 128 := N_0; have := r.isLt; omega⟩

theorem emb9 (t : Fin cfg0.N) (r : Fin 2048) : (((cfg0.win 9).blk t).view.emb (ix1 r)) 0 = row t r := by
  apply Fin.ext
  show win0_9.index t (0 : Fin 1) * 2048 + 1 * r.val = t.val * 2048 + r.val
  rw [(idx_facts t).1]; omega

/-- Entry `(r, k)` of point `t`'s block of a row-blocked 128-column window is entry `(2048·t + r, k)` of its array. -/
theorem emb0 (t : Fin cfg0.N) (r : Fin 2048) (k : Fin 128) :
    ((cfg0.win 0).blk t).view.emb (ix2 r k) = ix2 (row t r) k := by
  obtain ⟨-, e0, e1, -⟩ := idx_facts t
  funext a; apply Fin.ext
  match a with
  | ⟨0, _⟩ => show win0_0.index t (0 : Fin 2) * 2048 + 1 * r.val = t.val * 2048 + r.val; rw [e0]; omega
  | ⟨1, _⟩ => show win0_0.index t (1 : Fin 2) * 128 + 1 * k.val = k.val; rw [e1]; omega

theorem emb1 (t : Fin cfg0.N) (r : Fin 2048) (k : Fin 128) :
    ((cfg0.win 1).blk t).view.emb (ix2 r k) = ix2 (row t r) k := by
  obtain ⟨-, -, -, e0, e1, -⟩ := idx_facts t
  funext a; apply Fin.ext
  match a with
  | ⟨0, _⟩ => show win0_1.index t (0 : Fin 2) * 2048 + 1 * r.val = t.val * 2048 + r.val; rw [e0]; omega
  | ⟨1, _⟩ => show win0_1.index t (1 : Fin 2) * 128 + 1 * k.val = k.val; rw [e1]; omega

theorem emb2 (t : Fin cfg0.N) (r : Fin 2048) (k : Fin 128) :
    ((cfg0.win 2).blk t).view.emb (ix2 r k) = ix2 (row t r) k := by
  obtain ⟨-, -, -, -, -, e0, e1, -⟩ := idx_facts t
  funext a; apply Fin.ext
  match a with
  | ⟨0, _⟩ => show win0_2.index t (0 : Fin 2) * 2048 + 1 * r.val = t.val * 2048 + r.val; rw [e0]; omega
  | ⟨1, _⟩ => show win0_2.index t (1 : Fin 2) * 128 + 1 * k.val = k.val; rw [e1]; omega

theorem emb3 (t : Fin cfg0.N) (r : Fin 2048) (k : Fin 128) :
    ((cfg0.win 3).blk t).view.emb (ix2 r k) = ix2 (row t r) k := by
  obtain ⟨-, -, -, -, -, -, -, e0, e1, -⟩ := idx_facts t
  funext a; apply Fin.ext
  match a with
  | ⟨0, _⟩ => show win0_3.index t (0 : Fin 2) * 2048 + 1 * r.val = t.val * 2048 + r.val; rw [e0]; omega
  | ⟨1, _⟩ => show win0_3.index t (1 : Fin 2) * 128 + 1 * k.val = k.val; rw [e1]; omega

/-- The same for the three-column window of scalar features. -/
theorem emb4 (t : Fin cfg0.N) (r : Fin 2048) (q : Fin 3) :
    ((cfg0.win 4).blk t).view.emb (ix2 r q) = ix2 (row t r) q := by
  obtain ⟨-, -, -, -, -, -, -, -, -, e0, e1, -⟩ := idx_facts t
  funext a; apply Fin.ext
  match a with
  | ⟨0, _⟩ => show win0_4.index t (0 : Fin 2) * 2048 + 1 * r.val = t.val * 2048 + r.val; rw [e0]; omega
  | ⟨1, _⟩ => show win0_4.index t (1 : Fin 2) * 3 + 1 * q.val = q.val; rw [e1]; omega

/-- The weights' and biases' windows hold their whole arrays at every point. -/
theorem emb5 (t : Fin cfg0.N) (k : Fin 515) (j : Fin 512) :
    ((cfg0.win 5).blk t).view.emb (ix2 k j) = ix2 k j := by
  obtain ⟨-, -, -, -, -, -, -, -, -, -, -, e0, e1, -⟩ := idx_facts t
  funext a; apply Fin.ext
  match a with
  | ⟨0, _⟩ => show win0_5.index t (0 : Fin 2) * 515 + 1 * k.val = k.val; rw [e0]; omega
  | ⟨1, _⟩ => show win0_5.index t (1 : Fin 2) * 512 + 1 * j.val = j.val; rw [e1]; omega

theorem emb6 (t : Fin cfg0.N) (j : Fin 512) : ((cfg0.win 6).blk t).view.emb (ix1 j) = ix1 j := by
  obtain ⟨-, -, -, -, -, -, -, -, -, -, -, -, -, e0, -⟩ := idx_facts t
  funext a; apply Fin.ext
  match a with
  | ⟨0, _⟩ => show win0_6.index t (0 : Fin 1) * 512 + 1 * j.val = j.val; rw [e0]; omega

theorem emb7 (t : Fin cfg0.N) (j : Fin 512) (z : Fin 1) :
    ((cfg0.win 7).blk t).view.emb (ix2 j z) = ix2 j z := by
  obtain ⟨-, -, -, -, -, -, -, -, -, -, -, -, -, -, e0, e1, -⟩ := idx_facts t
  funext a; apply Fin.ext
  match a with
  | ⟨0, _⟩ => show win0_7.index t (0 : Fin 2) * 512 + 1 * j.val = j.val; rw [e0]; omega
  | ⟨1, _⟩ => show win0_7.index t (1 : Fin 2) * 1 + 1 * z.val = z.val; rw [e1]; omega

theorem emb8 (t : Fin cfg0.N) (z : Fin 1) : ((cfg0.win 8).blk t).view.emb (ix1 z) = ix1 z := by
  obtain ⟨-, -, -, -, -, -, -, -, -, -, -, -, -, -, -, -, e0⟩ := idx_facts t
  funext a; apply Fin.ext
  match a with
  | ⟨0, _⟩ => show win0_8.index t (0 : Fin 1) * 1 + 1 * z.val = z.val; rw [e0]; omega

/-- THE BODY AT A POINT, over any nine arrays: handed point `t`'s blocks of them, the payload at row `r` is the
    score of candidate `2048·t + r`: the payload is the score of the feature row it was handed, and the blocks it was
    handed are rows `2048·t + r` of the row-blocked arrays and the whole weights and biases. -/
theorem pay_at_point (A0 A1 A2 A3 : S262144x128.Idx → EReal) (A4 : S262144x3.Idx → EReal) (A5 : S515x512.Idx → EReal)
    (A6 : S512.Idx → EReal) (A7 : S512x1.Idx → EReal) (A8 : S1.Idx → EReal) (t : Fin cfg0.N) (r : Fin 2048) :
    k0_pay1 (F := Ideal) (((cfg0.win 0).blk t).view.read (Elt Ideal) A0) (((cfg0.win 1).blk t).view.read (Elt Ideal) A1)
      (((cfg0.win 2).blk t).view.read (Elt Ideal) A2) (((cfg0.win 3).blk t).view.read (Elt Ideal) A3)
      (((cfg0.win 4).blk t).view.read (Elt Ideal) A4) (((cfg0.win 5).blk t).view.read (Elt Ideal) A5)
      (((cfg0.win 6).blk t).view.read (Elt Ideal) A6) (((cfg0.win 7).blk t).view.read (Elt Ideal) A7)
      (((cfg0.win 8).blk t).view.read (Elt Ideal) A8) (ix1 r)
      = scoreOf A0 A1 A2 A3 A4 A5 A6 A7 A8 (row t r) := by
  refine (Cert.KernelIdeal.PayloadAt.pay_apply _ _ _ _ _ _ _ _ _ r).trans ?_
  have e0 : (fun k : Fin 128 => ((cfg0.win 0).blk t).view.read (Elt Ideal) A0 (ix2 r k)) = fun k => A0 (ix2 (row t r) k) :=
    funext fun k => congrArg A0 (emb0 t r k)
  have e1 : (fun k : Fin 128 => ((cfg0.win 1).blk t).view.read (Elt Ideal) A1 (ix2 r k)) = fun k => A1 (ix2 (row t r) k) :=
    funext fun k => congrArg A1 (emb1 t r k)
  have e2 : (fun k : Fin 128 => ((cfg0.win 2).blk t).view.read (Elt Ideal) A2 (ix2 r k)) = fun k => A2 (ix2 (row t r) k) :=
    funext fun k => congrArg A2 (emb2 t r k)
  have e3 : (fun k : Fin 128 => ((cfg0.win 3).blk t).view.read (Elt Ideal) A3 (ix2 r k)) = fun k => A3 (ix2 (row t r) k) :=
    funext fun k => congrArg A3 (emb3 t r k)
  have e4 : (fun q : Fin 3 => ((cfg0.win 4).blk t).view.read (Elt Ideal) A4 (ix2 r q)) = fun q => A4 (ix2 (row t r) q) :=
    funext fun q => congrArg A4 (emb4 t r q)
  have e5 : (fun (j : Fin 512) (k : Fin 515) => ((cfg0.win 5).blk t).view.read (Elt Ideal) A5 (ix2 k j)) = fun j k => A5 (ix2 k j) :=
    funext fun j => funext fun k => congrArg A5 (emb5 t k j)
  have e6 : (fun j : Fin 512 => ((cfg0.win 6).blk t).view.read (Elt Ideal) A6 (ix1 j)) = fun j => A6 (ix1 j) :=
    funext fun j => congrArg A6 (emb6 t j)
  have e7 : (fun j : Fin 512 => ((cfg0.win 7).blk t).view.read (Elt Ideal) A7 (ix2 j 0)) = fun j => A7 (ix2 j 0) :=
    funext fun j => congrArg A7 (emb7 t j 0)
  have e8 : ((cfg0.win 8).blk t).view.read (Elt Ideal) A8 (ix1 0) = A8 (ix1 0) := congrArg A8 (emb8 t 0)
  rw [e0, e1, e2, e3, e4, e5, e6, e7, e8]
  rfl

/-- A block function that agrees, row by row, with an array read at rows `2048·t + r` IS that array read through
    point `t`'s block of the result window. -/
theorem cut_eq_read (t : Fin cfg0.N) (X : S2048.Idx → EReal) (A : S262144.Idx → EReal)
    (h : ∀ r : Fin 2048, X (ix1 r) = A (ix1 (row t r))) :
    (cfg0.win 9).cut (grid0.coords t) X = ((cfg0.win 9).blk t).view.read (Elt Ideal) A := by
  funext y
  obtain ⟨r, rfl⟩ : ∃ r : Fin 2048, y = ix1 r := ⟨y 0, eq_ix1 y⟩
  show X (ix1 r) = A (((cfg0.win 9).blk t).view.emb (ix1 r))
  rw [h r]
  congr 1
  funext a
  match a with
  | ⟨0, _⟩ => exact (emb9 t r).symm

/-- WHAT POINT `t` WRITES BACK is block `t` of the array of scores. -/
theorem flushed9_eq (c : Dev nD) (t : Fin cfg0.N) :
    (dats m 0 c).flushed 9 t = ((cfg0.win 9).blk t).view.read (Elt Ideal) (scores m c) := by
  show (cfg0.win 9).cut (grid0.coords t) ((dats m 0 c).after 9 t) = _
  rw [after9]
  unfold out9
  rw [View.canon_unit_zero off1]
  simp only [View.ld_unit_zero (S := S2048x128) off2, View.ld_unit_zero (S := S2048x3) off2,
    View.ld_unit_zero (S := S515x512) off2, View.ld_unit_zero (S := S512) off1,
    View.ld_unit_zero (S := S512x1) off2, View.ld_unit_zero (S := S1) off1]
  refine cut_eq_read t _ _ fun r => ?_
  exact pay_at_point (V m c main_v0) (V m c main_v1) (V m c main_v2) (V m c main_v3) (V m c main_v7) (V m c main_v9)
    (V m c main_arg9) (V m c main_v11) (V m c main_arg11) t r

/-- An entry of the result array is in point `t`'s block iff it lies in the block's range. -/
theorem mem_blk9 (t : Fin cfg0.N) (i : S262144.Idx) :
    i ∈ ((cfg0.win 9).blk t).view.set ↔ ∀ a : Fin 1, win0_9.index t a * S2048.size a ≤ (i a).val ∧ (i a).val < win0_9.index t a * S2048.size a + S2048.size a := by
  show i ∈ ((View.whole main_v12).slice (win0_9.rect t)).set ↔ _
  rw [View.set_slice_whole, Rect.mem_set_unit]
  exact Iff.rfl

/-- Every entry of the result array is written back by some point: entry `n` by point `n / 2048`. -/
theorem covered (i : S262144.Idx) :
    ∃ t : Fin cfg0.N, (cfg0.win 9).flush t = true ∧ i ∈ ((cfg0.win 9).blk t).view.set := by
  have hi : (i 0).val < 262144 := (i 0).isLt
  have hN : cfg0.N = 128 := N_0
  refine ⟨⟨(i 0).val / 2048, by omega⟩, flush0_9 _, ?_⟩
  rw [mem_blk9]
  intro a
  match a with
  | ⟨0, _⟩ =>
    show win0_9.index _ (0 : Fin 1) * 2048 ≤ (i 0).val ∧ (i 0).val < win0_9.index _ (0 : Fin 1) * 2048 + 2048
    rw [(idx_facts _).1]
    show (i 0).val / 2048 * 2048 ≤ (i 0).val ∧ (i 0).val < (i 0).val / 2048 * 2048 + 2048
    omega

/-- THE RESULT ARRAY after the run is the array of scores. -/
theorem final9 (c : Dev nD) : (dats m 0 c).arrAt 9 cfg0.N = scores m c :=
  (dats m 0 c).arrAt_eq_of_cover 9 (scores m c) (fun t _ => flushed9_eq m c t) covered

end Cert.KernelIdeal.ResultArray

end
-- ==== Proof.HostValues.lean ====
/-
  What the host part of the kernel's program leaves in the arrays the kernel's windows stage.

  Before its one launch @main runs one hundred host operations in five stretches: four embedding look-ups, one per
  id array, then eight operations that stack the three scalar feature arrays and transpose the two weight matrices.
  A look-up wraps a negative row number by adding the table's height 100000, gathers the table's rows at the wrapped
  numbers, and replaces a row by the not-a-number word wherever the wrapped number falls outside 0 … 99999. For a row
  number in range, -100000 … 99999, the wrapped number lies in 0 … 99999: both range tests give the bit 1, their
  conjunction folded over the one-entry axis is 1, and the select on that mask returns the gathered row. The
  reference program wraps and gathers alike and has no mask, so on ids in range the two arrays are one term.

  Each stretch is read from ANY contents `X`: its result is a function of `X` at the arguments it reads, and every
  buffer it does not write keeps `X`'s contents. The launch's contents `Hand.V` are the five stretches composed, so
  a result of stretch `k` is read through the later stretches unchanged, and the arguments it reads through the
  earlier ones. The scalar features are stacked by the reference's own three broadcasts and concatenation; the two
  weight matrices are transposed and then narrowed, a change of format that changes no value on the extended reals.
-/
import proofs.«429534_j38465727103888_1_alg».proof.Proof.LaunchData
import proofs.«429534_j38465727103888_1_alg».proof.Proof.Gen.ReferenceIdeal.Read
import proofs.«429534_j38465727103888_1_alg».proof.Proof.Score
import Idealize.ShloMosaic.Lib.ValueIdx
import Idealize.ShloMosaic.Lib.ValueLayout

set_option maxRecDepth 16384

noncomputable section

namespace Cert.KernelIdeal.HostValues

open Cert.KernelIdeal Cert.KernelIdeal.Gen
open Idealize.ShloMosaic Idealize.ShloMosaic.TcCoe Idealize.SL.Sem Idealize.ShloMosaic.StableHlo

/-! ## The look-up, as the kernel's program spells it -/

/-- The row number counted from the table's first row: a negative one has the table's height added. -/
def wrap (x : (⟨S262144, .i32⟩ : BufTy).Contents (Elt Ideal)) : (⟨S262144x1, .i32⟩ : BufTy).Contents (Elt Ideal) :=
  broadcastInDim S262144x1 ![0] bcast_S262144_S262144x1_0
    (select (cmpi .slt x (broadcastInDim S262144 ![] bcast_S_S262144 (constantI S_ 32 0#32)))
      (addi x (broadcastInDim S262144 ![] bcast_S_S262144 (constantI S_ 32 100000#32))) x)

/-- Per looked-up row, the bit saying that the wrapped row number lies in the table, 0 … 99999. -/
def inTable (w : (⟨S262144x1, .i32⟩ : BufTy).Contents (Elt Ideal)) : (⟨S262144, .i1⟩ : BufTy).Contents (Elt Ideal) :=
  Host.reduce IntOp.andi
    (andi (cmpi .sge w (broadcastInDim S262144x1 ![] bcast_S_S262144x1 (constantI S_ 32 0#32)))
      (cmpi .sle w (broadcastInDim S262144x1 ![0, 1] bcast_S1x1_S262144x1_0_1
        (broadcastInDim S1x1 ![1] bcast_S1_S1x1_1 (constantI S1 32 99999#32)))))
    (constantI S_ 1 1#1) reducesTo_S262144x1_S262144_d1 h_S_

/-- The table's rows at the wrapped row numbers. -/
def rows (t : (⟨S100000x128, .f32⟩ : BufTy).Contents (Elt Ideal)) (x : (⟨S262144, .i32⟩ : BufTy).Contents (Elt Ideal)) :
    (⟨S262144x128, .f32⟩ : BufTy).Contents (Elt Ideal) :=
  Host.gather gather_S100000x128_S262144x1_S262144x128_1_0_n_n_0_1_1128 t (wrap x)

/-- The look-up as the kernel's program spells it: the gathered row where the wrapped row number lies in the table,
    the not-a-number word elsewhere. -/
def look (t : (⟨S100000x128, .f32⟩ : BufTy).Contents (Elt Ideal)) (x : (⟨S262144, .i32⟩ : BufTy).Contents (Elt Ideal)) :
    (⟨S262144x128, .f32⟩ : BufTy).Contents (Elt Ideal) :=
  select (broadcastInDim S262144x128 ![0] bcast_S262144_S262144x128_0 (inTable (wrap x))) (rows t x)
    (broadcastInDim S262144x128 ![] bcast_S_S262144x128 (constant (F := Ideal) S_ .f32 0x7FC00000#32))

/-! ## The mask is all ones on row numbers in range -/

theorem toInt_0 : (0#32 : BitVec 32).toInt = 0 := by decide
theorem toInt_100000 : (100000#32 : BitVec 32).toInt = 100000 := by decide
theorem toInt_99999 : (99999#32 : BitVec 32).toInt = 99999 := by decide

/-- A row number in range, wrapped, lies in 0 … 99999. -/
theorem toInt_wrapWord (x : BitVec 32) (h : Cert.Score.InRange x) :
    0 ≤ (Scalar.select (IntOp.cmpi .slt x 0#32) (IntOp.addi x 100000#32) x).toInt ∧
      (Scalar.select (IntOp.cmpi .slt x 0#32) (IntOp.addi x 100000#32) x).toInt ≤ 99999 := by
  obtain ⟨h1, h2⟩ := h
  by_cases hx : x.toInt < 0
  · have e : IntOp.cmpi .slt x 0#32 = 1#1 := by
      show BitVec.ofBool (x.slt 0#32) = 1#1
      rw [BitVec.slt, toInt_0, decide_eq_true hx]; rfl
    rw [e]
    show 0 ≤ (x + 100000#32).toInt ∧ (x + 100000#32).toInt ≤ 99999
    rw [BitVec.toInt_add, toInt_100000, Int.bmod_def]
    omega
  · have e : IntOp.cmpi .slt x 0#32 = 0#1 := by
      show BitVec.ofBool (x.slt 0#32) = 0#1
      rw [BitVec.slt, toInt_0, decide_eq_false hx]; rfl
    rw [e]
    show 0 ≤ x.toInt ∧ x.toInt ≤ 99999
    omega

/-- Both range tests of a word in 0 … 99999 give the bit 1, and so does their conjunction. -/
theorem inTableWord (w : BitVec 32) (h0 : 0 ≤ w.toInt) (h1 : w.toInt ≤ 99999) :
    IntOp.andi (IntOp.cmpi .sge w 0#32) (IntOp.cmpi .sle w 99999#32) = 1#1 := by
  have a : IntOp.cmpi .sge w 0#32 = 1#1 := by
    show BitVec.ofBool ((0#32 : BitVec 32).sle w) = 1#1
    rw [BitVec.sle, toInt_0, decide_eq_true h0]; rfl
  have b : IntOp.cmpi .sle w 99999#32 = 1#1 := by
    show BitVec.ofBool (w.sle 99999#32) = 1#1
    rw [BitVec.sle, toInt_99999, decide_eq_true h1]; rfl
  rw [a, b]; decide

/-- A conjunction, folded from the bit 1 over bits that are all 1, is 1. -/
theorem foldl_andi_one {ι : Type} (f : ι → BitVec 1) (l : List ι) (h : ∀ i ∈ l, f i = 1#1) :
    l.foldl (fun r i => IntOp.andi r (f i)) 1#1 = 1#1 := by
  induction l with
  | nil => rfl
  | cons a l ih =>
    rw [List.foldl_cons, h a List.mem_cons_self, show IntOp.andi (1#1 : BitVec 1) 1#1 = 1#1 by decide]
    exact ih fun i hi => h i (List.mem_cons_of_mem _ hi)

/-- The wrapped row number at an index is the wrap of one of the row numbers. -/
theorem wrap_apply (x : (⟨S262144, .i32⟩ : BufTy).Contents (Elt Ideal)) (i : S262144x1.Idx) :
    ∃ k, wrap x i = Scalar.select (IntOp.cmpi .slt (x k) 0#32) (IntOp.addi (x k) 100000#32) (x k) :=
  ⟨_, rfl⟩

theorem toInt_wrap (x : (⟨S262144, .i32⟩ : BufTy).Contents (Elt Ideal)) (h : ∀ i, Cert.Score.InRange (x i))
    (i : S262144x1.Idx) : 0 ≤ (wrap x i).toInt ∧ (wrap x i).toInt ≤ 99999 := by
  obtain ⟨k, e⟩ := wrap_apply x i
  rw [e]; exact toInt_wrapWord _ (h k)

/-- With every wrapped row number in 0 … 99999 the mask is 1 at every row. -/
theorem inTable_one (w : (⟨S262144x1, .i32⟩ : BufTy).Contents (Elt Ideal))
    (hw : ∀ i, 0 ≤ (w i).toInt ∧ (w i).toInt ≤ 99999) (j : S262144.Idx) : inTable w j = 1#1 := by
  unfold inTable
  rw [Host.reduce_eq_foldl]
  exact foldl_andi_one _ _ fun i _ => inTableWord (w i) (hw i).1 (hw i).2

/-- A select on a mask that is 1 everywhere is its first branch. -/
theorem select_of_one {s : Shape} {α : Type} (c : IVec s 1) (a b : s.Idx → α) (h : ∀ j, c j = 1#1) : select c a b = a := by
  funext j
  show Scalar.select (c j) (a j) (b j) = a j
  rw [h j]; rfl

/-- On row numbers in range the look-up is the gather: the mask selects the gathered row everywhere. -/
theorem look_eq_rows (t : (⟨S100000x128, .f32⟩ : BufTy).Contents (Elt Ideal)) (x : (⟨S262144, .i32⟩ : BufTy).Contents (Elt Ideal))
    (h : ∀ i, Cert.Score.InRange (x i)) : look t x = rows t x := by
  unfold look
  exact select_of_one _ _ _ fun j => inTable_one _ (toInt_wrap x h) _

/-! ## The reference's gathers are the same terms -/

theorem rows_eq_v6 (t : (⟨S100000x128, .f32⟩ : BufTy).Contents (Elt Ideal)) (x : (⟨S262144, .i32⟩ : BufTy).Contents (Elt Ideal)) :
    rows t x = Cert.ReferenceIdeal.Read.val_main_v6 (F := Ideal) x t := rfl
theorem rows_eq_v13 (t : (⟨S100000x128, .f32⟩ : BufTy).Contents (Elt Ideal)) (x : (⟨S262144, .i32⟩ : BufTy).Contents (Elt Ideal)) :
    rows t x = Cert.ReferenceIdeal.Read.val_main_v13 (F := Ideal) x t := rfl
theorem rows_eq_v20 (t : (⟨S100000x128, .f32⟩ : BufTy).Contents (Elt Ideal)) (x : (⟨S262144, .i32⟩ : BufTy).Contents (Elt Ideal)) :
    rows t x = Cert.ReferenceIdeal.Read.val_main_v20 (F := Ideal) x t := rfl
theorem rows_eq_v27 (t : (⟨S100000x128, .f32⟩ : BufTy).Contents (Elt Ideal)) (x : (⟨S262144, .i32⟩ : BufTy).Contents (Elt Ideal)) :
    rows t x = Cert.ReferenceIdeal.Read.val_main_v27 (F := Ideal) x t := rfl

/-! ## What each stretch of host operations writes, and leaves alone -/

/-- The buffers look-up 0's operations write. -/
abbrev W0 : List (Ref sig .tc) :=
  [main_call0_c, main_call0_v0, main_call0_v1, main_call0_c_0, main_call0_v2, main_call0_v3,
    main_call0_v4, main_call0_v5, main_call0_c_1, main_call0_c_2, main_call0_v6, main_call0_v7, main_call0_v8,
    main_call0_v9, main_call0_v10, main_call0_v11, main_call0_c_3, main_call0_v12, main_call0_v13, main_call0_v14,
    main_call0_cst, main_call0_v15, main_v0]

/-- The buffers look-up 1's operations write. -/
abbrev W1 : List (Ref sig .tc) :=
  [main_call1_c, main_call1_v0, main_call1_v1, main_call1_c_0, main_call1_v2, main_call1_v3,
    main_call1_v4, main_call1_v5, main_call1_c_1, main_call1_c_2, main_call1_v6, main_call1_v7, main_call1_v8,
    main_call1_v9, main_call1_v10, main_call1_v11, main_call1_c_3, main_call1_v12, main_call1_v13, main_call1_v14,
    main_call1_cst, main_call1_v15, main_v1]

/-- The buffers look-up 2's operations write. -/
abbrev W2 : List (Ref sig .tc) :=
  [main_call2_c, main_call2_v0, main_call2_v1, main_call2_c_0, main_call2_v2, main_call2_v3,
    main_call2_v4, main_call2_v5, main_call2_c_1, main_call2_c_2, main_call2_v6, main_call2_v7, main_call2_v8,
    main_call2_v9, main_call2_v10, main_call2_v11, main_call2_c_3, main_call2_v12, main_call2_v13, main_call2_v14,
    main_call2_cst, main_call2_v15, main_v2]

/-- The buffers look-up 3's operations write. -/
abbrev W3 : List (Ref sig .tc) :=
  [main_call3_c, main_call3_v0, main_call3_v1, main_call3_c_0, main_call3_v2, main_call3_v3,
    main_call3_v4, main_call3_v5, main_call3_c_1, main_call3_c_2, main_call3_v6, main_call3_v7, main_call3_v8,
    main_call3_v9, main_call3_v10, main_call3_v11, main_call3_c_3, main_call3_v12, main_call3_v13, main_call3_v14,
    main_call3_cst, main_call3_v15, main_v3]

/-- The buffers the last eight host operations write. -/
abbrev W4 : List (Ref sig .tc) := [main_v4, main_v5, main_v6, main_v7, main_v8, main_v9, main_v10, main_v11]

/-- Stretch 0 leaves every buffer it does not write as it found it. -/
theorem frame0 (X : Valuation τ sig (Elt Ideal)) {r : Ref sig .tc} (hr : r ∉ W0) :
    after hostOps0 X (Proc.devRef .tc r) = X (Proc.devRef .tc r) :=
  after_of_writes_sub hostOps0 X (W := W0) (by
    simp only [hostOps0, List.Forall, nullary_writes, unary_writes, binary_writes, ternary_writes, nary_writes]
    repeat' apply And.intro
    all_goals exact Finset.singleton_subset_iff.2 (List.mem_toFinset.2 (List.mem_map_of_mem (by decide)))) hr

/-- Stretch 1 leaves every buffer it does not write as it found it. -/
theorem frame1 (X : Valuation τ sig (Elt Ideal)) {r : Ref sig .tc} (hr : r ∉ W1) :
    after hostOps0_1 X (Proc.devRef .tc r) = X (Proc.devRef .tc r) :=
  after_of_writes_sub hostOps0_1 X (W := W1) (by
    simp only [hostOps0_1, List.Forall, nullary_writes, unary_writes, binary_writes, ternary_writes, nary_writes]
    repeat' apply And.intro
    all_goals exact Finset.singleton_subset_iff.2 (List.mem_toFinset.2 (List.mem_map_of_mem (by decide)))) hr

/-- Stretch 2 leaves every buffer it does not write as it found it. -/
theorem frame2 (X : Valuation τ sig (Elt Ideal)) {r : Ref sig .tc} (hr : r ∉ W2) :
    after hostOps0_2 X (Proc.devRef .tc r) = X (Proc.devRef .tc r) :=
  after_of_writes_sub hostOps0_2 X (W := W2) (by
    simp only [hostOps0_2, List.Forall, nullary_writes, unary_writes, binary_writes, ternary_writes, nary_writes]
    repeat' apply And.intro
    all_goals exact Finset.singleton_subset_iff.2 (List.mem_toFinset.2 (List.mem_map_of_mem (by decide)))) hr

/-- Stretch 3 leaves every buffer it does not write as it found it. -/
theorem frame3 (X : Valuation τ sig (Elt Ideal)) {r : Ref sig .tc} (hr : r ∉ W3) :
    after hostOps0_3 X (Proc.devRef .tc r) = X (Proc.devRef .tc r) :=
  after_of_writes_sub hostOps0_3 X (W := W3) (by
    simp only [hostOps0_3, List.Forall, nullary_writes, unary_writes, binary_writes, ternary_writes, nary_writes]
    repeat' apply And.intro
    all_goals exact Finset.singleton_subset_iff.2 (List.mem_toFinset.2 (List.mem_map_of_mem (by decide)))) hr

/-- Stretch 4 leaves every buffer it does not write as it found it. -/
theorem frame4 (X : Valuation τ sig (Elt Ideal)) {r : Ref sig .tc} (hr : r ∉ W4) :
    after hostOps0_4 X (Proc.devRef .tc r) = X (Proc.devRef .tc r) :=
  after_of_writes_sub hostOps0_4 X (W := W4) (by
    simp only [hostOps0_4, List.Forall, nullary_writes, unary_writes, binary_writes, ternary_writes, nary_writes]
    repeat' apply And.intro
    all_goals exact Finset.singleton_subset_iff.2 (List.mem_toFinset.2 (List.mem_map_of_mem (by decide)))) hr

/-! ## What each stretch leaves in its results, from any contents -/

set_option maxHeartbeats 2000000 in
/-- Look-up 0 leaves `look` of the table and of id array 0 in its result. -/
theorem s0_v0 (X : Valuation τ sig (Elt Ideal)) :
    after hostOps0 X (Proc.devRef .tc main_v0)
      = look (X (Proc.devRef .tc main_arg7)) (X (Proc.devRef .tc main_arg0)) := by
  dsimp only [hostOps0]
  after_results_simp
  simp only [TRef.ofBuf, TRef.toBuf, cast_eq]
  rfl

set_option maxHeartbeats 2000000 in
/-- Look-up 1 leaves `look` of the table and of id array 1 in its result. -/
theorem s1_v1 (X : Valuation τ sig (Elt Ideal)) :
    after hostOps0_1 X (Proc.devRef .tc main_v1)
      = look (X (Proc.devRef .tc main_arg7)) (X (Proc.devRef .tc main_arg1)) := by
  dsimp only [hostOps0_1]
  after_results_simp
  simp only [TRef.ofBuf, TRef.toBuf, cast_eq]
  rfl

set_option maxHeartbeats 2000000 in
/-- Look-up 2 leaves `look` of the table and of id array 2 in its result. -/
theorem s2_v2 (X : Valuation τ sig (Elt Ideal)) :
    after hostOps0_2 X (Proc.devRef .tc main_v2)
      = look (X (Proc.devRef .tc main_arg7)) (X (Proc.devRef .tc main_arg2)) := by
  dsimp only [hostOps0_2]
  after_results_simp
  simp only [TRef.ofBuf, TRef.toBuf, cast_eq]
  rfl

set_option maxHeartbeats 2000000 in
/-- Look-up 3 leaves `look` of the table and of id array 3 in its result. -/
theorem s3_v3 (X : Valuation τ sig (Elt Ideal)) :
    after hostOps0_3 X (Proc.devRef .tc main_v3)
      = look (X (Proc.devRef .tc main_arg7)) (X (Proc.devRef .tc main_arg3)) := by
  dsimp only [hostOps0_3]
  after_results_simp
  simp only [TRef.ofBuf, TRef.toBuf, cast_eq]
  rfl

/-- A three-operand operation's result, each operand's contents at its own reference. -/
theorem nary3_result {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The last stretch stacks the three scalar feature arrays as the reference does. -/
theorem s4_v7 (X : Valuation τ sig (Elt Ideal)) :
    after hostOps0_4 X (Proc.devRef .tc main_v7)
      = Cert.ReferenceIdeal.Read.val_main_v31 (F := Ideal) (X (Proc.devRef .tc main_arg4)) (X (Proc.devRef .tc main_arg5))
          (X (Proc.devRef .tc main_arg6)) := by
  dsimp only [hostOps0_4]
  simp only [after_cons, after_nil]
  repeat (rw [unary_result_ne]; rotate_left; decide)
  rw [nary3_result]
  repeat (first | rw [unary_result] | (rw [unary_result_ne]; rotate_left; decide))
  rfl

/-- The last stretch leaves the first-layer matrix transposed (and narrowed, which changes no value here). -/
theorem s4_v9 (X : Valuation τ sig (Elt Ideal)) :
    after hostOps0_4 X (Proc.devRef .tc main_v9)
      = (truncf (F := Ideal) .bf16 (transpose S515x512 [1, 0] (X (Proc.devRef .tc main_arg8)) transposes_S512x515_S515x512_1_0)
          bitsLt_bf16_f32 : (⟨S515x512, .bf16⟩ : BufTy).Contents (Elt Ideal)) := by
  dsimp only [hostOps0_4]
  after_results

/-- The last stretch leaves the second-layer matrix transposed (and narrowed, which changes no value here). -/
theorem s4_v11 (X : Valuation τ sig (Elt Ideal)) :
    after hostOps0_4 X (Proc.devRef .tc main_v11)
      = (truncf (F := Ideal) .bf16 (transpose S512x1 [1, 0] (X (Proc.devRef .tc main_arg10)) transposes_S1x512_S512x1_1_0)
          bitsLt_bf16_f32 : (⟨S512x1, .bf16⟩ : BufTy).Contents (Elt Ideal)) := by
  dsimp only [hostOps0_4]
  after_results

variable (m : (ℓ : Loc nD τ sig) → Buf (Elt Ideal) ℓ) (c : Dev nD)

/-- The launch's contents, stretch by stretch. -/
theorem V_split (b : Ref sig .tc) : Hand.V m c b
    = after hostOps0_4 (after hostOps0_3 (after hostOps0_2 (after hostOps0_1 (after hostOps0 (fun b => m (c, b))))))
        (Proc.devRef .tc b) := by
  dsimp only [Hand.V]
  simp only [List.flatten_cons, List.flatten_nil, List.append_nil, StableHlo.after_append]

/-! ## The launch's contents -/

/-- Id array 0's embedding rows at the launch are the reference's gather, the ids being in range. -/
theorem V_v0 (h : ∀ i, Cert.Score.InRange (m ((c : Thread nD τ).loc main_arg0) i)) :
    Hand.V m c main_v0 = Cert.ReferenceIdeal.Read.val_main_v6 (F := Ideal) (m ((c : Thread nD τ).loc main_arg0)) (m ((c : Thread nD τ).loc main_arg7)) := by
  rw [V_split, frame4 _ (by decide), frame3 _ (by decide), frame2 _ (by decide), frame1 _ (by decide), s0_v0]
  exact (look_eq_rows _ _ h).trans (rows_eq_v6 _ _)

/-- Id array 1's embedding rows at the launch are the reference's gather, the ids being in range. -/
theorem V_v1 (h : ∀ i, Cert.Score.InRange (m ((c : Thread nD τ).loc main_arg1) i)) :
    Hand.V m c main_v1 = Cert.ReferenceIdeal.Read.val_main_v13 (F := Ideal) (m ((c : Thread nD τ).loc main_arg1)) (m ((c : Thread nD τ).loc main_arg7)) := by
  rw [V_split, frame4 _ (by decide), frame3 _ (by decide), frame2 _ (by decide), s1_v1, frame0 _ (by decide), frame0 _ (by decide)]
  exact (look_eq_rows _ _ h).trans (rows_eq_v13 _ _)

/-- Id array 2's embedding rows at the launch are the reference's gather, the ids being in range. -/
theorem V_v2 (h : ∀ i, Cert.Score.InRange (m ((c : Thread nD τ).loc main_arg2) i)) :
    Hand.V m c main_v2 = Cert.ReferenceIdeal.Read.val_main_v20 (F := Ideal) (m ((c : Thread nD τ).loc main_arg2)) (m ((c : Thread nD τ).loc main_arg7)) := by
  rw [V_split, frame4 _ (by decide), frame3 _ (by decide), s2_v2, frame1 _ (by decide), frame0 _ (by decide), frame1 _ (by decide), frame0 _ (by decide)]
  exact (look_eq_rows _ _ h).trans (rows_eq_v20 _ _)

/-- Id array 3's embedding rows at the launch are the reference's gather, the ids being in range. -/
theorem V_v3 (h : ∀ i, Cert.Score.InRange (m ((c : Thread nD τ).loc main_arg3) i)) :
    Hand.V m c main_v3 = Cert.ReferenceIdeal.Read.val_main_v27 (F := Ideal) (m ((c : Thread nD τ).loc main_arg3)) (m ((c : Thread nD τ).loc main_arg7)) := by
  rw [V_split, frame4 _ (by decide), s3_v3, frame2 _ (by decide), frame1 _ (by decide), frame0 _ (by decide), frame2 _ (by decide), frame1 _ (by decide), frame0 _ (by decide)]
  exact (look_eq_rows _ _ h).trans (rows_eq_v27 _ _)

/-- The stacked scalar features at the launch are the reference's. -/
theorem V_v7 : Hand.V m c main_v7
    = Cert.ReferenceIdeal.Read.val_main_v31 (F := Ideal) (m ((c : Thread nD τ).loc main_arg4)) (m ((c : Thread nD τ).loc main_arg5)) (m ((c : Thread nD τ).loc main_arg6)) := by
  rw [V_split, s4_v7]
  rw [frame3 _ (by decide), frame2 _ (by decide), frame1 _ (by decide), frame0 _ (by decide)]
  rw [frame3 _ (by decide), frame2 _ (by decide), frame1 _ (by decide), frame0 _ (by decide)]
  rw [frame3 _ (by decide), frame2 _ (by decide), frame1 _ (by decide), frame0 _ (by decide)]

/-- The first-layer matrix at the launch is the argument's transpose. -/
theorem V_v9 (k : Fin 515) (j : Fin 512) :
    Hand.V m c main_v9 (ValueIdx.ix2 k j) = m ((c : Thread nD τ).loc main_arg8) (ValueIdx.ix2 j k) := by
  rw [V_split, s4_v9, frame3 _ (by decide), frame2 _ (by decide), frame1 _ (by decide), frame0 _ (by decide)]
  exact (ValueIdx.truncf_apply (φ := .f32) (ψ := .bf16) _ bitsLt_bf16_f32 _).trans
    (ValueIdx.transpose_ix2_apply (a := 512) (b := 515) _ _ k j)

/-- The second-layer matrix at the launch is the argument's transpose. -/
theorem V_v11 (j : Fin 512) :
    Hand.V m c main_v11 (ValueIdx.ix2 j 0) = m ((c : Thread nD τ).loc main_arg10) (ValueIdx.ix2 0 j) := by
  rw [V_split, s4_v11, frame3 _ (by decide), frame2 _ (by decide), frame1 _ (by decide), frame0 _ (by decide)]
  exact (ValueIdx.truncf_apply (φ := .f32) (ψ := .bf16) _ bitsLt_bf16_f32 _).trans
    (ValueIdx.transpose_ix2_apply (a := 1) (b := 512) _ _ j 0)

/-- No host operation writes the first-layer bias. -/
theorem V_arg9 : Hand.V m c main_arg9 = m ((c : Thread nD τ).loc main_arg9) := by
  rw [V_split, frame4 _ (by decide), frame3 _ (by decide), frame2 _ (by decide), frame1 _ (by decide), frame0 _ (by decide)]

/-- No host operation writes the second-layer bias. -/
theorem V_arg11 : Hand.V m c main_arg11 = m ((c : Thread nD τ).loc main_arg11) := by
  rw [V_split, frame4 _ (by decide), frame3 _ (by decide), frame2 _ (by decide), frame1 _ (by decide), frame0 _ (by decide)]

end Cert.KernelIdeal.HostValues

end
-- ==== Proof.RefScore.lean ====
/-
  The reference's result read at one candidate.

  The reference builds, for every candidate n, a row of 515 features (four gathered embedding rows of 128 entries laid
  end to end, then three scalar features), multiplies it by the transposed first-layer weights, adds the first-layer
  bias, cuts off below at zero, multiplies by the transposed second-layer weights and adds the second-layer bias.
  Read at the candidate n this is the two-layer scorer of the shared specification applied to the candidate's feature
  row; the gathered arrays and the three-column array of scalar features stay the opaque arrays they are.
-/
import proofs.«429534_j38465727103888_1_alg».proof.Proof.Gen.ReferenceIdeal.Read
import proofs.«429534_j38465727103888_1_alg».proof.Proof.Score
import Idealize.ShloMosaic.Lib.Pipeline.Value
import Idealize.ShloMosaic.Lib.ValueIdx
import Idealize.ShloMosaic.PureOps.Ideal.Laws

noncomputable section

namespace Cert.ReferenceIdeal.RefScore

open Cert.ReferenceIdeal Cert.ReferenceIdeal.Gen Idealize.ShloMosaic Idealize.ShloMosaic.TcCoe Idealize.SL.Sem Idealize.ShloMosaic.StableHlo
open Idealize.ShloMosaic.ValueIdx

/-! ## The five pieces laid end to end along the feature axis -/

/-- Four arrays of 128 columns and one of 3 columns, joined along the columns and read at row `n`, column `k`: the
    feature row of the specification, built from the five arrays' rows `n`. Column `k` falls in the piece whose span
    holds it: columns 0–127 in the first, 128–255 in the second, 256–383 in the third, 384–511 in the fourth, 512–514
    in the last, at `k` less the columns before that piece. -/
theorem features_apply (g0 g1 g2 g3 : (⟨S262144x128, .f32⟩ : BufTy).Contents (Elt Ideal))
    (s : (⟨S262144x3, .f32⟩ : BufTy).Contents (Elt Ideal)) (n : Fin 262144) (k : Fin 515) :
    concatenate S262144x515 1 [⟨S262144x128, g0⟩, ⟨S262144x128, g1⟩, ⟨S262144x128, g2⟩, ⟨S262144x128, g3⟩, ⟨S262144x3, s⟩]
        concatenates_S262144x128_S262144x128_S262144x128_S262144x128_S262144x3_S262144x515_d1 (ix2 n k)
      = Cert.Score.feat (fun q => g0 (ix2 n q)) (fun q => g1 (ix2 n q)) (fun q => g2 (ix2 n q)) (fun q => g3 (ix2 n q))
          (fun q => s (ix2 n q)) k := by
  by_cases h0 : k.val < 128
  · rw [Cert.Score.feat_lt128 _ _ _ _ _ k h0]
    refine concatenate_apply_piece (1 : Fin S262144x515.rank) _ _ (ix2 n k) 0 (by show (0 : Nat) < 5; decide)
      S262144x128 g0 rfl rfl 0 rfl (ix2 n ⟨k.val, h0⟩) (fun b hb => ?_) ?_
    · match b with
      | ⟨0, _⟩ => rfl
      | ⟨1, _⟩ => exact absurd rfl hb
    · show 0 + k.val = k.val
      omega
  by_cases h1 : k.val < 256
  · rw [Cert.Score.feat_lt256 _ _ _ _ _ k (by omega) h1]
    refine concatenate_apply_piece (1 : Fin S262144x515.rank) _ _ (ix2 n k) 1 (by show (1 : Nat) < 5; decide)
      S262144x128 g1 rfl rfl 128 rfl (ix2 n ⟨k.val - 128, by omega⟩) (fun b hb => ?_) ?_
    · match b with
      | ⟨0, _⟩ => rfl
      | ⟨1, _⟩ => exact absurd rfl hb
    · show 128 + (k.val - 128) = k.val
      omega
  by_cases h2 : k.val < 384
  · rw [Cert.Score.feat_lt384 _ _ _ _ _ k (by omega) h2]
    refine concatenate_apply_piece (1 : Fin S262144x515.rank) _ _ (ix2 n k) 2 (by show (2 : Nat) < 5; decide)
      S262144x128 g2 rfl rfl 256 rfl (ix2 n ⟨k.val - 256, by omega⟩) (fun b hb => ?_) ?_
    · match b with
      | ⟨0, _⟩ => rfl
      | ⟨1, _⟩ => exact absurd rfl hb
    · show 256 + (k.val - 256) = k.val
      omega
  by_cases h3 : k.val < 512
  · rw [Cert.Score.feat_lt512 _ _ _ _ _ k (by omega) h3]
    refine concatenate_apply_piece (1 : Fin S262144x515.rank) _ _ (ix2 n k) 3 (by show (3 : Nat) < 5; decide)
      S262144x128 g3 rfl rfl 384 rfl (ix2 n ⟨k.val - 384, by omega⟩) (fun b hb => ?_) ?_
    · match b with
      | ⟨0, _⟩ => rfl
      | ⟨1, _⟩ => exact absurd rfl hb
    · show 384 + (k.val - 384) = k.val
      omega
  · rw [Cert.Score.feat_ge512 _ _ _ _ _ k (by omega)]
    refine concatenate_apply_piece (1 : Fin S262144x515.rank) _ _ (ix2 n k) 4 (by show (4 : Nat) < 5; decide)
      S262144x3 s rfl rfl 512 rfl (ix2 n ⟨k.val - 512, by have := k.isLt; omega⟩) (fun b hb => ?_) ?_
    · match b with
      | ⟨0, _⟩ => rfl
      | ⟨1, _⟩ => exact absurd rfl hb
    · show 512 + (k.val - 512) = k.val
      omega

/-! ## The stages, each read at plain coordinates -/

section Stages

variable (x0 x1 x2 x3 : (⟨S262144, .i32⟩ : BufTy).Contents (Elt Ideal))
  (x4 x5 x6 : (⟨S262144, .f32⟩ : BufTy).Contents (Elt Ideal))
  (x7 : (⟨S100000x128, .f32⟩ : BufTy).Contents (Elt Ideal))
  (x8 : (⟨S512x515, .f32⟩ : BufTy).Contents (Elt Ideal))
  (x9 : (⟨S512, .f32⟩ : BufTy).Contents (Elt Ideal))
  (x10 : (⟨S1x512, .f32⟩ : BufTy).Contents (Elt Ideal))
  (x11 : (⟨S1, .f32⟩ : BufTy).Contents (Elt Ideal))

/-- Candidate `n`'s feature row: its four gathered embedding rows, then its three scalar features. -/
abbrev row (n : Fin 262144) : Fin 515 → EReal :=
  Cert.Score.feat (fun k => Read.val_main_v6 (F := Ideal) x0 x7 (ix2 n k))
    (fun k => Read.val_main_v13 (F := Ideal) x1 x7 (ix2 n k)) (fun k => Read.val_main_v20 (F := Ideal) x2 x7 (ix2 n k))
    (fun k => Read.val_main_v27 (F := Ideal) x3 x7 (ix2 n k)) (fun q => Read.val_main_v31 (F := Ideal) x4 x5 x6 (ix2 n q))

/-- The joined feature array at `(n, k)` is entry `k` of candidate `n`'s feature row. -/
theorem features_at (n : Fin 262144) (k : Fin 515) :
    Read.val_main_v32 (F := Ideal) x0 x1 x2 x3 x4 x5 x6 x7 (ix2 n k) = row x0 x1 x2 x3 x4 x5 x6 x7 n k := by
  unfold Read.val_main_v32
  exact features_apply _ _ _ _ _ n k

/-- The transposed first-layer weights at `(k, j)` are the weights at `(j, k)`. -/
theorem w1T_at (k : Fin 515) (j : Fin 512) :
    Read.val_main_v33 (F := Ideal) x8 (ix2 k j) = x8 (ix2 j k) := by
  rw [Read.val_main_v33_apply]
  exact congrArg x8 (funext fun a => by match a with | ⟨0, _⟩ => rfl | ⟨1, _⟩ => rfl)

/-- The first layer's product at `(n, j)`: the feature row against row `j` of the weights. -/
theorem layer1_at (n : Fin 262144) (j : Fin 512) :
    Read.val_main_v34 (F := Ideal) x0 x1 x2 x3 x4 x5 x6 x7 x8 (ix2 n j)
      = ∑ k : Fin 515, row x0 x1 x2 x3 x4 x5 x6 x7 n k * x8 (ix2 j k) := by
  rw [Read.val_main_v34_apply]
  refine Finset.sum_congr rfl fun k _ => ?_
  have el : Read.lidx_main_v34 (ix2 n j) k = ix2 n k :=
    funext fun a => by match a with | ⟨0, _⟩ => rfl | ⟨1, _⟩ => rfl
  have er : Read.ridx_main_v34 (ix2 n j) k = ix2 k j :=
    funext fun a => by match a with | ⟨0, _⟩ => rfl | ⟨1, _⟩ => rfl
  rw [el, er, features_at, w1T_at]

/-- The first-layer bias, broadcast over the candidates, at `(n, j)` is entry `j` of the bias. -/
theorem b1_at (n : Fin 262144) (j : Fin 512) :
    Read.val_main_v36 (F := Ideal) x9 (ix2 n j) = x9 (ix1 j) := by
  rw [Read.val_main_v36_apply, Read.val_main_v35_apply]
  exact congrArg x9 (funext fun a => by match a with | ⟨0, _⟩ => rfl)

/-- The hidden layer at `(n, j)` is the specification's hidden unit `j` of candidate `n`'s feature row: the
    constant the maximum is taken with is the zero word, which is the extended reals' zero. -/
theorem hidden_at (n : Fin 262144) (j : Fin 512) :
    Read.val_main_v38 (F := Ideal) x0 x1 x2 x3 x4 x5 x6 x7 x8 x9 (ix2 n j)
      = Cert.Score.hidden (row x0 x1 x2 x3 x4 x5 x6 x7 n) (fun j k => x8 (ix2 j k)) (fun j => x9 (ix1 j)) j := by
  rw [Read.val_main_v38_apply, Read.val_main_v37_apply, layer1_at, b1_at, Read.val_main_call0_v0_apply,
    Read.val_main_call0_cst_apply, Ideal.maximumf_def, Ideal.addf_def, Ideal.ofBits_def, Ideal.ofBits_zero_f32]
  rfl

/-- The transposed second-layer weights at `(j, 0)` are the weights at `(0, j)`. -/
theorem w2T_at (j : Fin 512) :
    Read.val_main_v39 (F := Ideal) x10 (ix2 j (0 : Fin 1)) = x10 (ix2 0 j) := by
  rw [Read.val_main_v39_apply]
  exact congrArg x10 (funext fun a => by match a with | ⟨0, _⟩ => rfl | ⟨1, _⟩ => rfl)

/-- The second layer's product at `(n, 0)`: the hidden units against the second-layer weights. -/
theorem layer2_at (n : Fin 262144) :
    Read.val_main_v40 (F := Ideal) x0 x1 x2 x3 x4 x5 x6 x7 x8 x9 x10 (ix2 n (0 : Fin 1))
      = ∑ j : Fin 512, Cert.Score.hidden (row x0 x1 x2 x3 x4 x5 x6 x7 n) (fun j k => x8 (ix2 j k))
          (fun j => x9 (ix1 j)) j * x10 (ix2 0 j) := by
  rw [Read.val_main_v40_apply]
  refine Finset.sum_congr rfl fun j _ => ?_
  have el : Read.lidx_main_v40 (ix2 n (0 : Fin 1)) j = ix2 n j :=
    funext fun a => by match a with | ⟨0, _⟩ => rfl | ⟨1, _⟩ => rfl
  have er : Read.ridx_main_v40 (ix2 n (0 : Fin 1)) j = ix2 j (0 : Fin 1) :=
    funext fun a => by match a with | ⟨0, _⟩ => rfl | ⟨1, _⟩ => rfl
  rw [el, er, hidden_at, w2T_at]

/-- The second-layer bias, broadcast over the candidates, at `(n, 0)` is the bias's one entry. -/
theorem b2_at (n : Fin 262144) :
    Read.val_main_v42 (F := Ideal) x11 (ix2 n (0 : Fin 1)) = x11 (ix1 0) := by
  rw [Read.val_main_v42_apply, Read.val_main_v41_apply]
  exact congrArg x11 (funext fun a => by match a with | ⟨0, _⟩ => rfl)

end Stages

/-! ## The result -/

/-- **The reference's result at candidate `n`** is the specification's score of the candidate's feature row under
    the two layers' weights and biases. -/
theorem ref_apply (x0 x1 x2 x3 : (⟨S262144, .i32⟩ : BufTy).Contents (Elt Ideal))
    (x4 x5 x6 : (⟨S262144, .f32⟩ : BufTy).Contents (Elt Ideal))
    (x7 : (⟨S100000x128, .f32⟩ : BufTy).Contents (Elt Ideal)) (x8 : (⟨S512x515, .f32⟩ : BufTy).Contents (Elt Ideal))
    (x9 : (⟨S512, .f32⟩ : BufTy).Contents (Elt Ideal)) (x10 : (⟨S1x512, .f32⟩ : BufTy).Contents (Elt Ideal))
    (x11 : (⟨S1, .f32⟩ : BufTy).Contents (Elt Ideal)) (n : Fin 262144) :
    Read.val_main_v44 (F := Ideal) x0 x1 x2 x3 x4 x5 x6 x7 x8 x9 x10 x11 (ValueIdx.ix1 n)
      = Cert.Score.score
          (Cert.Score.feat (fun k => Read.val_main_v6 (F := Ideal) x0 x7 (ValueIdx.ix2 n k))
            (fun k => Read.val_main_v13 (F := Ideal) x1 x7 (ValueIdx.ix2 n k))
            (fun k => Read.val_main_v20 (F := Ideal) x2 x7 (ValueIdx.ix2 n k))
            (fun k => Read.val_main_v27 (F := Ideal) x3 x7 (ValueIdx.ix2 n k))
            (fun q => Read.val_main_v31 (F := Ideal) x4 x5 x6 (ValueIdx.ix2 n q)))
          (fun j k => x8 (ValueIdx.ix2 j k)) (fun j => x9 (ValueIdx.ix1 j)) (fun j => x10 (ValueIdx.ix2 0 j))
          (x11 (ValueIdx.ix1 0)) := by
  have e : Read.idx_main_v44 (ix1 n) = ix2 n (0 : Fin 1) :=
    funext fun a => by match a with | ⟨0, _⟩ => exact Fin.ext (Nat.div_one _) | ⟨1, _⟩ => rfl
  rw [Read.val_main_v44_apply, Read.val_main_v43_apply, e, layer2_at, b2_at, Ideal.addf_def]
  rfl

end Cert.ReferenceIdeal.RefScore

end
-- ==== Proof.IdsInRange.lean ====
/-
  The precondition, read back at the four id arrays.

  The precondition is one truth value: the conjunction of eight "every entry is finite" facts about the float
  inputs and, for each of the four id arrays, the fact that every entry x satisfies -100000 ≤ x and x < 100000 as
  signed 32-bit words. A conjunction of truth values that is true has every conjunct true, and a conjunction taken
  over all entries of an array that is true is true at each entry; a signed comparison of words that is true is the
  same comparison of the integers they denote. The word 4294867296 denotes -100000. So under the precondition each
  entry of each id array denotes an integer in [-100000, 100000): a row number of the 100000-row table, counted
  from the first row or from the last.
-/
import proofs.«429534_j38465727103888_1_alg».proof.Defs
import proofs.«429534_j38465727103888_1_alg».proof.Proof.Gen.Pre_finite_inputs
import proofs.«429534_j38465727103888_1_alg».proof.Proof.Score
import Idealize.ShloMosaic.Lib.ReduceAll
import Idealize.ShloMosaic.Lib.ValueIdx

set_option maxRecDepth 16384

noncomputable section

namespace Cert.KernelIdeal.IdsInRange

open Idealize.ShloMosaic Idealize.SL.Sem
open Cert.Pre_finite_inputs (S_ S262144)

/-- A rank-0 array has one index. -/
instance : Subsingleton S_.Idx := ⟨fun a b => funext fun d => d.elim0⟩

/-- The word 4294867296 read as a signed integer is -100000. -/
theorem toInt_lo : (4294867296#32).toInt = -100000 := by decide

/-- The word 100000 read as a signed integer is 100000. -/
theorem toInt_hi : (100000#32).toInt = 100000 := by decide

/-- One id array: if the conjunction over all entries of (x ≥ -100000) ∧ (x < 100000), started from true, is true,
    then every entry denotes an integer in [-100000, 100000). -/
theorem all_inRange [Cert.Pre_finite_inputs.Facts] (ids : IVec S262144 32) (init : IVec S_ 1) (j : S_.Idx)
    (e : Host.reduce IntOp.andi
          (andi (cmpi .sge ids (broadcastInDim S262144 ![] Cert.Pre_finite_inputs.Facts.bcast_S_S262144 (constantI S_ 32 4294867296#32)))
                (cmpi .slt ids (broadcastInDim S262144 ![] Cert.Pre_finite_inputs.Facts.bcast_S_S262144 (constantI S_ 32 100000#32))))
          init Cert.Pre_finite_inputs.Facts.reducesTo_S262144_S_d0 Cert.Pre_finite_inputs.Facts.h_S_ j = 1#1)
    (i : S262144.Idx) : Cert.Score.InRange (ids i) := by
  -- the conjunction over all entries is true, so it is true at entry i
  have p := Host.reduce_andi_all _ _ _ _ j e i
  -- at entry i the predicate is the conjunction of the two word comparisons against the constants
  simp only [andi, cmpi, broadcastInDim, constantI] at p
  obtain ⟨p1, p2⟩ := IntOp.andi_eq_one.1 p
  -- each true comparison of words is the comparison of the integers they denote
  rw [IntOp.cmpi_sge, toInt_lo] at p1
  rw [IntOp.cmpi_slt, toInt_hi] at p2
  exact ⟨p1, p2⟩

/-- Under the precondition every entry of each of the four id arrays is a row number in [-100000, 100000). -/
theorem ids_in_range (m : (ℓ : Loc Cert.KernelIdeal.nD Cert.KernelIdeal.τ Cert.KernelIdeal.sig) → Buf (Elt Ideal) ℓ) (h : Cert.Pre_KernelIdeal (hPre_finite_inputs := Cert.Pre_finite_inputs.Gen.facts) m) (c : Dev Cert.KernelIdeal.nD) :
    (∀ i, Cert.Score.InRange (m ((c.tc : Thread Cert.KernelIdeal.nD Cert.KernelIdeal.τ).loc Cert.KernelIdeal.main_arg0) i))
    ∧ (∀ i, Cert.Score.InRange (m ((c.tc : Thread Cert.KernelIdeal.nD Cert.KernelIdeal.τ).loc Cert.KernelIdeal.main_arg1) i))
    ∧ (∀ i, Cert.Score.InRange (m ((c.tc : Thread Cert.KernelIdeal.nD Cert.KernelIdeal.τ).loc Cert.KernelIdeal.main_arg2) i))
    ∧ (∀ i, Cert.Score.InRange (m ((c.tc : Thread Cert.KernelIdeal.nD Cert.KernelIdeal.τ).loc Cert.KernelIdeal.main_arg3) i)) := by
  -- the precondition's one truth value, on device c
  have e := congrFun (h c) ValueIdx.ix0
  -- it is ((((finiteness ∧ ids0) ∧ ids1) ∧ ids2) ∧ ids3): peel the conjuncts from the outside in
  obtain ⟨e59, e3⟩ := IntOp.andi_eq_one.1 e
  obtain ⟨e52, e2⟩ := IntOp.andi_eq_one.1 e59
  obtain ⟨e45, e1⟩ := IntOp.andi_eq_one.1 e52
  obtain ⟨-, e0⟩ := IntOp.andi_eq_one.1 e45
  exact ⟨fun i => all_inRange _ _ _ e0 i, fun i => all_inRange _ _ _ e1 i,
    fun i => all_inRange _ _ _ e2 i, fun i => all_inRange _ _ _ e3 i⟩

end Cert.KernelIdeal.IdsInRange

end
-- ==== Proof.ResultValue.lean ====
/-
  The kernel program's run, with its result named in the reference's terms.

  The array of scores is computed from the arrays the launch finds. Under the precondition every id lies in the
  table's index range, so the look-up's out-of-range mask is all ones and each gathered array is the reference's
  own gather; the stacked scalar features are the reference's; the weight matrices reach the kernel transposed, and
  the scorer reads them back transposed. So candidate `n`'s score from those arrays is the reference's result at `n`,
  both being the scorer of `Score.lean` on the same feature row and the same weights.
-/
import proofs.«429534_j38465727103888_1_alg».proof.Proof.ResultArray
import proofs.«429534_j38465727103888_1_alg».proof.Proof.LaunchRun
import proofs.«429534_j38465727103888_1_alg».proof.Proof.HostValues
import proofs.«429534_j38465727103888_1_alg».proof.Proof.RefScore
import proofs.«429534_j38465727103888_1_alg».proof.Proof.IdsInRange

set_option maxRecDepth 16384

noncomputable section

namespace Cert.KernelIdeal.ResultValue

open Cert.KernelIdeal Cert.KernelIdeal.Gen Cert.KernelIdeal.Hand Cert.KernelIdeal.ResultArray
open Idealize.ShloMosaic Idealize.ShloMosaic.TcCoe Idealize.SL.Sem Idealize.ShloMosaic.ValueIdx

variable (m : (ℓ : Loc nD τ sig) → Buf (Elt Ideal) ℓ) (ρ : Dev nD → PrngReg)

/-- The reference's result as a function of the kernel program's argument arrays on core `c`. -/
def refResult (c : Dev nD) : S262144.Idx → EReal :=
  Cert.ReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- With every id in range, the array of scores is the reference's result. -/
theorem scores_eq_ref (c : Dev nD)
    (h0 : ∀ i, Cert.Score.InRange ((m ((c : Thread nD τ).loc main_arg0)) i)) (h1 : ∀ i, Cert.Score.InRange ((m ((c : Thread nD τ).loc main_arg1)) i))
    (h2 : ∀ i, Cert.Score.InRange ((m ((c : Thread nD τ).loc main_arg2)) i)) (h3 : ∀ i, Cert.Score.InRange ((m ((c : Thread nD τ).loc main_arg3)) i)) :
    scores m c = refResult m c := by
  funext i
  obtain ⟨n, rfl⟩ : ∃ n : Fin 262144, i = ix1 n := ⟨i 0, eq_ix1 i⟩
  unfold refResult
  rw [Cert.ReferenceIdeal.RefScore.ref_apply]
  show scoreAt m c n = _
  unfold scoreAt scoreOf
  rw [Cert.KernelIdeal.HostValues.V_v0 m c h0, Cert.KernelIdeal.HostValues.V_v1 m c h1,
    Cert.KernelIdeal.HostValues.V_v2 m c h2, Cert.KernelIdeal.HostValues.V_v3 m c h3,
    Cert.KernelIdeal.HostValues.V_v7 m c, Cert.KernelIdeal.HostValues.V_arg9 m c,
    Cert.KernelIdeal.HostValues.V_arg11 m c]
  have e9 : (fun (j : Fin 512) (k : Fin 515) => V m c main_v9 (ix2 k j)) = fun j k => (m ((c : Thread nD τ).loc main_arg8)) (ix2 j k) :=
    funext fun j => funext fun k => Cert.KernelIdeal.HostValues.V_v9 m c k j
  have e11 : (fun j : Fin 512 => V m c main_v11 (ix2 j 0)) = fun j => (m ((c : Thread nD τ).loc main_arg10)) (ix2 0 j) :=
    funext fun j => Cert.KernelIdeal.HostValues.V_v11 m c j
  rw [e9, e11]

/-- THE RUN of the idealized kernel program under the precondition: it terminates without fault, the result
    array holds the reference's result of the arguments, and the arguments are unchanged. -/
theorem run (h : Cert.Pre_KernelIdeal (hPre_finite_inputs := Cert.Pre_finite_inputs.Gen.facts) m) :
    θ_run defs (onTc (τ := τ) (main (F := Ideal))) ⟨m, fun _ => 0, ρ⟩ fun r => ∀ c : Dev nD,
      r.2.mem ((c.tc : Thread nD τ).loc main_v12) = refResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r hr c =>
      have hid := Cert.KernelIdeal.IdsInRange.ids_in_range m h c
      ⟨((hr c).1 9).trans ((final9 m c).trans (scores_eq_ref m c hid.1 hid.2.1 hid.2.2.1 hid.2.2.2)),
        args_kept m r hr c⟩)
    (run_main m ρ)

end Cert.KernelIdeal.ResultValue

end
-- ==== Proof.lean ====
/-
  The certificate of the candidate scorer: a fused kernel (feature row, two-layer perceptron) against its jnp reference.

  Both programs gather four rows of a 100000-row embedding table per candidate, stack three scalar features behind
  them, and score the 515-entry feature row with a two-layer perceptron with 512 hidden units. The kernel program
  does the look-ups on the host and the perceptron in one kernel over 128 row blocks of 2048 candidates; it hands
  the matrix unit bf16 copies of the features and weights, which on the extended reals are the values themselves.
  The kernel program's look-up replaces an out-of-range row by a not-a-number pattern where the reference's clamps the
  row number, so the two agree exactly where every id is a valid index of the table: that is the precondition.

  Frames: each kernel program's run is the library's frame run of its one launch (LaunchRun, LaunchRunBits); the
  reference's is its generated run. No rewrite was applied in printing the idealized kernel, so there is nothing
  to preserve. Value: after the run the result array is the array of scores (ResultArray), which under the
  precondition is the reference's result of the same arguments (ResultValue), and the reference's run ends at that
  result of its own arguments, which agree with the kernel program's.
-/
import proofs.«429534_j38465727103888_1_alg».proof.Defs
import proofs.«429534_j38465727103888_1_alg».proof.Proof.Gen.Kernel
import proofs.«429534_j38465727103888_1_alg».proof.Proof.Gen.KernelIdeal
import proofs.«429534_j38465727103888_1_alg».proof.Proof.Gen.ReferenceIdeal
import proofs.«429534_j38465727103888_1_alg».proof.Proof.Gen.Pre_finite_inputs
import proofs.«429534_j38465727103888_1_alg».proof.Proof.Gen.ReferenceIdeal.Run
import proofs.«429534_j38465727103888_1_alg».proof.Proof.Gen.ReferenceIdeal.Read
import proofs.«429534_j38465727103888_1_alg».proof.Proof.LaunchRun
import proofs.«429534_j38465727103888_1_alg».proof.Proof.LaunchRunBits
import proofs.«429534_j38465727103888_1_alg».proof.Proof.ResultValue
import Idealize.ShloMosaic.Adequacy
import Idealize.ShloMosaic.Init

noncomputable section

namespace Cert.Proof

open Idealize.ShloMosaic Idealize.SL.Sem

/-- The word-level kernel program runs to the end and leaves its arguments unchanged. -/
theorem frame_kernel : Cert.frame_Kernel (hKernel := Cert.Kernel.Gen.facts) (hPre_finite_inputs := Cert.Pre_finite_inputs.Gen.facts) :=
  fun m ρ _ => Cert.Kernel.Hand.frame m ρ

/-- So does the idealized kernel program. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments, both idealized programs end with the same scores: the kernel
    program's result is the reference's result of its own arguments, and the reference computes that result of
    arguments that are the same. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.ResultValue.refResult m c, Cert.KernelIdeal.ResultValue.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
